-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_arg9 : FVec F S32x1 .f32) (main_arg10 : FVec F S1 .f32) (main_v33 : IVec S_ 1) : IVec S_ 1 :=
  let main_v34 : FVec F S32x1 .f32 := Host.absf main_arg9
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg1 main_v44
  let main_c_17 : IVec S_ 32 := constantI S_ 32 50000#32
  let main_v46 : IVec S2x800000 32 := broadcastInDim S2x800000 ![] bcast_S_S2x800000 main_c_17
  let main_v47 : IVec S2x800000 1 := cmpi .slt main_arg1 main_v46
  let main_v48 : IVec S2x800000 1 := andi main_v45 main_v47
  let main_c_18 : IVec S_ 1 := constantI S_ 1 1#1
  let main_v49 : IVec S_ 1 := (fun x v => Host.reduce IntOp.andi x v reducesTo_S2x800000_S_d0_1 h_S_) main_v48 main_c_18
  let main_v50 : IVec S_ 1 := andi main_v43 main_v49
  main_v50

def fn_part1 {F : FTy → Type} [FloatOps F] (main_arg1 : IVec S2x800000 32) (main_arg6 : FVec F S64 .f32) (main_arg7 : FVec F S64x32 .f32) (main_arg8 : FVec F S32 .f32) (main_arg9 : FVec F S32x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg9 main_arg10 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64x32 .f32) (main_arg8 : FVec F S32 .f32) (main_arg9 : FVec F S32x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x64 : Shape := ⟨2, ![1, 64]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S800000x64 : Shape := ⟨2, ![800000, 64]⟩
abbrev S64x1 : Shape := ⟨2, ![64, 1]⟩
abbrev S1x32 : Shape := ⟨2, ![1, 32]⟩
abbrev S1x1 : Shape := ⟨2, ![1, 1]⟩

abbrev nBuf : Space → Nat
  | .hbm => 103
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S1x64, .f32⟩
  | .hbm, ⟨30, _⟩ => ⟨S1x64, .f32⟩
  | .hbm, ⟨31, _⟩ => ⟨S50000x64, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .bf16⟩
  | .hbm, ⟨41, _⟩ => ⟨S_, .f32⟩
  | .hbm, ⟨42, _⟩ => ⟨S50000x64, .f32⟩
  | .hbm, ⟨43, _⟩ => ⟨S800000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S50000x64, .f32⟩
  | .hbm, ⟨53, _⟩ => ⟨S50000x64, .f32⟩
  | .hbm, ⟨54, _⟩ => ⟨S50000x64, .f32⟩
  | .hbm, ⟨55, _⟩ => ⟨S50000x64, .bf16⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .bf16⟩
  | .hbm, ⟨65, _⟩ => ⟨S_, .f32⟩
  | .hbm, ⟨66, _⟩ => ⟨S50000x64, .f32⟩
  | .hbm, ⟨67, _⟩ => ⟨S800000x64, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S50000x1, .i32⟩
  | .hbm, ⟨80, _⟩ => ⟨S64x64, .f32⟩
  | .hbm, ⟨81, _⟩ => ⟨S_, .f32⟩
  | .hbm, ⟨82, _⟩ => ⟨S50000x1, .f32⟩
  | .hbm, ⟨83, _⟩ => ⟨S_, .f32⟩
  | .hbm, ⟨84, _⟩ => ⟨S64x1, .f32⟩
  | .hbm, ⟨85, _⟩ => ⟨S50000x1, .i32⟩
  | .hbm, ⟨86, _⟩ => ⟨S64x1, .f32⟩
  | .hbm, ⟨87, _⟩ => ⟨S_, .f32⟩
  | .hbm, ⟨88, _⟩ => ⟨S64x1, .f32⟩
  | .hbm, ⟨89, _⟩ => ⟨S64x1, .f32⟩
  | .hbm, ⟨90, _⟩ => ⟨S64x64, .f32⟩
  | .hbm, ⟨91, _⟩ => ⟨S64x64, .f32⟩
  | .hbm, ⟨92, _⟩ => ⟨S64x32, .f32⟩
  | .hbm, ⟨93, _⟩ => ⟨S1x32, .f32⟩
  | .hbm, ⟨94, _⟩ => ⟨S64x32, .f32⟩
  | .hbm, ⟨95, _⟩ => ⟨S64x32, .f32⟩
  | .hbm, ⟨96, _⟩ => ⟨S_, .f32⟩
  | .hbm, ⟨97, _⟩ => ⟨S64x32, .f32⟩
  | .hbm, ⟨98, _⟩ => ⟨S64x32, .f32⟩
  | .hbm, ⟨99, _⟩ => ⟨S64x1, .f32⟩
  | .hbm, ⟨100, _⟩ => ⟨S1x1, .f32⟩
  | .hbm, ⟨101, _⟩ => ⟨S64x1, .f32⟩
  | .hbm, ⟨102, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x1, .i32⟩
  | .local _ .vmem, ⟨21, _⟩ => ⟨S5000x1, .i32⟩
  | .local _ .vmem, ⟨22, _⟩ => ⟨S64x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call0_cst : Ref sig .tc := ⟨.hbm, 96, rfl⟩
abbrev main_call0_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  iota_S5000x64_d1_w32 : S5000x64.Iotas .tc 32 [1]
  natLt_1_32 : 1 < 32
  shapeCasts_S64x64_S64x64 : S64x64.ShapeCasts S64x64
  bcast_S_S50000x1 : S_.BroadcastsInDim S50000x1 (![] : Fin 0 → Fin S50000x1.rank)
  bcast_S_S64x1 : S_.BroadcastsInDim S64x1 (![] : Fin 0 → Fin S64x1.rank)
  bcast_S50000_S50000x1_0 : S50000.BroadcastsInDim S50000x1 (![0] : Fin 1 → Fin S50000x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S5000x64_S64x64_0_0_1_1_n_n_wf : DotDims.WF S5000x64 S5000x64 S64x64 [0] [0] [1] [1] [] []
  scatter_S64x1_S50000x1_S50000x1_1_0_0_1_wf : ScatterDims.WF S64x1 S50000x1 S50000x1 [1] [0] [0] 1
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .bf16 = 32 ∨ (Rect.block (s := S50000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .i32 = 32 ∨ (Rect.block (s := S50000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v55) S64x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S64x1 : Shape := ⟨2, ![64, 1]⟩
abbrev S1x32 : Shape := ⟨2, ![1, 32]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000x64, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x1, .f32⟩
  | 58 => ⟨S850000x64, .f32⟩
  | 59 => ⟨S850000x64, .f32⟩
  | 60 => ⟨S_, .f32⟩
  | 61 => ⟨S50000x64, .f32⟩
  | 62 => ⟨S850000x1, .i32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S50000, .i32⟩
  | 71 => ⟨S850000, .i32⟩
  | 72 => ⟨S850000, .i32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S850000, .f32⟩
  | 102 => ⟨S50000x64, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x64, .f32⟩
  | 112 => ⟨S850000x1, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S_, .f32⟩
  | 126 => ⟨S64x64, .f32⟩
  | 127 => ⟨S50000x1, .i32⟩
  | _ => ⟨S50000x128, .f32⟩

abbrev hbmTy0_1 (i : Nat) : BufTy := match i % 128 with
  | 0 => ⟨S64x64, .f32⟩
  | 1 => ⟨S_, .f32⟩
  | 2 => ⟨S50000x1, .f32⟩
  | 3 => ⟨S_, .f32⟩
  | 4 => ⟨S64x1, .f32⟩
  | 5 => ⟨S50000x1, .i32⟩
  | 6 => ⟨S64x1, .f32⟩
  | 7 => ⟨S_, .f32⟩
  | 8 => ⟨S64x1, .f32⟩
  | 9 => ⟨S64x1, .f32⟩
  | 10 => ⟨S64x64, .f32⟩
  | 11 => ⟨S64x64, .f32⟩
  | 12 => ⟨S64x32, .f32⟩
  | 13 => ⟨S1x32, .f32⟩
  | 14 => ⟨S64x32, .f32⟩
  | 15 => ⟨S64x32, .f32⟩
  | 16 => ⟨S_, .f32⟩
  | 17 => ⟨S64x32, .f32⟩
  | 18 => ⟨S64x32, .f32⟩
  | 19 => ⟨S64x1, .f32⟩
  | 20 => ⟨S1x1, .f32⟩
  | 21 => ⟨S64x1, .f32⟩
  | 22 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_call1_cst : Ref sig .tc := ⟨.hbm, 122, rfl⟩
abbrev main_call1_v0 : Ref sig .tc := ⟨.hbm, 123, rfl⟩
abbrev main_v89 : Ref sig .tc := ⟨.hbm, 124, rfl⟩
abbrev main_cst_18 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_cst_20 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_21 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_call2_cst : Ref sig .tc := ⟨.hbm, 144, rfl⟩
abbrev main_call2_v0 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64x1_S50000x1_S50000x1_1_0_0_1_wf : ScatterDims.WF S64x1 S50000x1 S50000x1 [1] [0] [0] 1
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.KArr.lean ====
/-
  Names, at their literal array types, for the buffers the kernel program's three regions read and write, as a region
  finds them (`V`: every buffer's contents when the region is entered).  Node features and aggregates are 50000 × 64
  (50000 × 128 for the input features), the normaliser is a 50000 × 1 column, biases are 1 × 64 rows, graph ids a 50000 × 1
  column of 32-bit words.
-/
import proofs.«420831_j59596966199647_3_alg».proof.Proof.Gen.KernelIdeal.Frame
import Idealize.ShloMosaic.PureOps.Ideal

noncomputable section

namespace Cert.KernelIdeal.KArr

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- The input node features `x`. -/
abbrev aX (c : Dev nD) : Vec Ideal S50000x128 .f32 := V c main_arg0
/-- The first layer's weights. -/
abbrev aW1 (c : Dev nD) : Vec Ideal S128x64 .f32 := V c main_arg3
/-- The second layer's weights. -/
abbrev aW2 (c : Dev nD) : Vec Ideal S64x64 .f32 := V c main_arg5
/-- The normaliser column `dinv`. -/
abbrev aD (c : Dev nD) : Vec Ideal S50000x1 .f32 := V c main_v13
/-- The first layer's bias as a row. -/
abbrev aB1 (c : Dev nD) : Vec Ideal S1x64 .f32 := V c main_v14
/-- The second layer's bias as a row. -/
abbrev aB2 (c : Dev nD) : Vec Ideal S1x64 .f32 := V c main_v15
/-- The first layer's pre-scaled rows (region 0's output). -/
abbrev aHs1 (c : Dev nD) : Vec Ideal S50000x64 .bf16 := V c main_v16
/-- The first neighbourhood aggregate (region 1's input). -/
abbrev aAgg1 (c : Dev nD) : Vec Ideal S50000x64 .f32 := V c main_v34
/-- The second layer's pre-scaled rows (region 1's output). -/
abbrev aHs2 (c : Dev nD) : Vec Ideal S50000x64 .bf16 := V c main_v35
/-- The second neighbourhood aggregate (region 2's input). -/
abbrev aAgg2 (c : Dev nD) : Vec Ideal S50000x64 .f32 := V c main_v53
/-- The graph ids as a column. -/
abbrev aBatch (c : Dev nD) : Vec Ideal S50000x1 .i32 := V c main_v54
/-- The pooled sums (region 2's output). -/
abbrev aSums (c : Dev nD) : Vec Ideal S64x64 .f32 := V c main_v55

/-- Region 0's output array after its last grid point. -/
abbrev out0 (c : Dev nD) : Vec Ideal S50000x64 .bf16 := (dat0 (F := Ideal) V c).arrAt 3 cfg0.N
/-- Region 1's output array after its last grid point. -/
abbrev out1 (c : Dev nD) : Vec Ideal S50000x64 .bf16 := (dat1 (F := Ideal) V c).arrAt 4 cfg1.N
/-- Region 2's output array after its last grid point. -/
abbrev out2 (c : Dev nD) : Vec Ideal S64x64 .f32 := (dat2 (F := Ideal) V c).arrAt 4 cfg2.N

end Cert.KernelIdeal.KArr

end
-- ==== Proof.Spec.lean ====
/-
  The mathematics both programs compute, as functions of node, edge and feature indices over the extended reals.

  A graph of 50000 nodes and 800000 directed edges (source `src e`, destination `dst e`) carries a feature row per node.
  One graph-convolution layer with self loops and symmetric normalisation sends features `h` to
  `out n = Σ_{e : dst e = n} h (src e) · (dinv (src e) · dinv n) + h n · (dinv n · dinv n) + b`, where `dinv n` is the
  inverse square root of the in-degree of `n` counted with its self loop.  Because `dinv n` is a non-negative finite
  number it distributes over the sum, so the same value is `dinv n · agg n + b` with
  `agg n = Σ_{e : dst e = n} hs (src e) + hs n` over the pre-scaled rows `hs m = h m · dinv m`: this factored form is
  the one written here.  Two such layers, each followed by a rectifier, are pooled per graph (the sum of the rows whose
  graph id is `g`).
-/
import Idealize.ShloMosaic.PureOps.Ideal
import Idealize.ShloMosaic.Lib.ValueIdx

noncomputable section

namespace Cert.Spec

open Idealize.ShloMosaic

/-- The node an index word names: its signed value, brought into `[0, 50000)` (the value itself when it is there). -/
def nodeOf (v : BitVec 32) : Fin 50000 := ⟨min v.toInt.toNat 49999, by omega⟩

theorem nodeOf_val_of_inRange {v : BitVec 32} (h0 : 0 ≤ v.toInt) (h1 : v.toInt < 50000) : ((nodeOf v).val : ℤ) = v.toInt := by
  unfold nodeOf; simp only; omega

/-- Edge `e`'s source node, read off row 0 of the 2 × 800000 edge table. -/
def srcOf (ei : (⟨2, ![2, 800000]⟩ : Shape).Idx → BitVec 32) (e : Fin 800000) : Fin 50000 := nodeOf (ei (ValueIdx.ix2 (0 : Fin 2) e))
/-- Edge `e`'s destination node, read off row 1 of the edge table. -/
def dstOf (ei : (⟨2, ![2, 800000]⟩ : Shape).Idx → BitVec 32) (e : Fin 800000) : Fin 50000 := nodeOf (ei (ValueIdx.ix2 (1 : Fin 2) e))

variable (src dst : Fin 800000 → Fin 50000)

/-- The in-degree of node `n` plus one for its self loop: a sum of ones over the edges that end at `n`. -/
def deg (n : Fin 50000) : EReal := (0 + ∑ _e ∈ Finset.univ.filter (fun e => dst e = n), (1 : EReal)) + 1

/-- The normaliser `1 / sqrt (max (deg n) 1)`. -/
def dinv (n : Fin 50000) : EReal := Ideal.rsqrt (max (deg dst n) 1)

/-- The neighbourhood sum of pre-scaled rows with the self loop added once: `Σ_{e : dst e = n} hs (src e) + hs n`. -/
def agg (hs : Fin 50000 → Fin 64 → EReal) (n : Fin 50000) (k : Fin 64) : EReal :=
  (0 + ∑ e ∈ Finset.univ.filter (fun e => dst e = n), hs (src e) k) + hs n k

/-- A layer's output after bias and rectifier: `max (dinv n · agg n + b) 0`. -/
def act (hs : Fin 50000 → Fin 64 → EReal) (b : Fin 64 → EReal) (n : Fin 50000) (k : Fin 64) : EReal :=
  max (dinv dst n * agg src dst hs n k + b k) 0

/-- The pre-scaled linear map of a layer: `(Σ_c a n c · W c k) · dinv n`. -/
def scaled {C : ℕ} (a : Fin 50000 → Fin C → EReal) (W : Fin C → Fin 64 → EReal) (n : Fin 50000) (k : Fin 64) : EReal :=
  (0 + ∑ c : Fin C, a n c * W c k) * dinv dst n

/-- Per-graph pooling: the sum of the rows whose graph id is `g`. -/
def pooled (batch : Fin 50000 → BitVec 32) (a : Fin 50000 → Fin 64 → EReal) (g k : Fin 64) : EReal :=
  ∑ n ∈ Finset.univ.filter (fun n : Fin 50000 => (batch n).toInt = (g.val : ℤ)), a n k

/-- The pooled second-layer activations: the 64 × 64 array both programs hand to their shared dense head. -/
def sums (x : Fin 50000 → Fin 128 → EReal) (W1 : Fin 128 → Fin 64 → EReal) (b1 : Fin 64 → EReal)
    (W2 : Fin 64 → Fin 64 → EReal) (b2 : Fin 64 → EReal) (batch : Fin 50000 → BitVec 32) (g k : Fin 64) : EReal :=
  pooled batch (act src dst (scaled dst (act src dst (scaled dst x W1) b1) W2) b2) g k

end Cert.Spec

end
-- ==== Proof.ScatterRead.lean ====
/-
  Reading the host's accumulating scatter and its gather at an index, for the row forms a one-axis `x.at[idx].add(u)`,
  `segment_sum` and `x[idx]` lower to: scatter indices and start indices of shape [M, 1] naming a row of the operand.

  * An update row `e` lands on operand row `n` exactly when its index word, read signed, is `n`; a word outside
    `[0, N)` lands nowhere.  So the scattered sum at `(n, k)` is the operand's entry plus the sum of `u (e, k)` over the
    rows `e` whose word is `n`.
  * A gather reads row `min (max word 0) (N - 1)`: the word read signed and brought into range.
-/
import Idealize.ShloMosaic.PureOps.Ideal
import Idealize.ShloMosaic.Lib.ValueIdx

noncomputable section

namespace Cert.ScatterRead

open Idealize.ShloMosaic Idealize.ShloMosaic.ValueIdx

/-- The dimension numbers of the row scatter, as a record over an arbitrary well-formedness proof. -/
private abbrev rowsDims (N M C : ℕ) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C : ℕ} (wf : ScatterDims.WF ⟨2, ![N, C]⟩ ⟨2, ![M, 1]⟩ ⟨2, ![M, C]⟩ [1] [0] [0] 1)
  (idx : IVec ⟨2, ![M, 1]⟩ 32) (j : (⟨2, ![M, C]⟩ : Shape).Idx)

/-- The window of update `j` starts, on the row axis, at the word its row reads, signed. -/
private theorem rows_start0 : (rowsDims N M C wf).start j idx 0 = (idx (ix2 (j 0) (0 : Fin 1))).toInt := by
  unfold ScatterDims.start
  rw [dif_pos (show (0 : Fin 2) ∈ (rowsDims N M C wf).scatterDimsToOperandDims from List.mem_singleton.mpr rfl)]
  have hsi : (rowsDims N M C wf).siIdx j ⟨List.idxOf (0 : Fin 2) (rowsDims N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column axis is not named by the scatter map: the window starts at column 0. -/
private theorem rows_start1 : (rowsDims N M C wf).start j idx 1 = 0 := by
  unfold ScatterDims.start
  rw [dif_neg (show (1 : Fin 2) ∉ (rowsDims N M C wf).scatterDimsToOperandDims from (by decide : (1 : Fin 2) ∉ [(0 : Fin 2)]))]

/-- The row axis is an inserted window axis: the window coordinate there is 0. -/
private theorem rows_window0 : (rowsDims N M C wf).window j 0 = 0 := by
  unfold ScatterDims.window
  rw [dif_neg (show (0 : Fin 2) ∉ (rowsDims N M C wf).sKept from (by decide : (0 : Fin 2) ∉ (List.finRange 2).filter (· ∉ [(0 : Fin 2)])))]

/-- The column axis carries the update's own column as window coordinate. -/
private theorem rows_window1 : (rowsDims N M C wf).window j 1 = (j 1).val := by
  unfold ScatterDims.window
  rw [dif_pos (show (1 : Fin 2) ∈ (rowsDims N M C wf).sKept from (by decide : (1 : Fin 2) ∈ (List.finRange 2).filter (· ∉ [(0 : Fin 2)])))]
  rfl

/-- Update `j` lands on `(n, k)` exactly when its row's word, read signed, is `n` and its column is `k`: the row
    condition includes `0 ≤ word < N` since `n < N`, and the column `j 1 < C` is always inside the operand. -/
private theorem rows_resultIdx_iff (n : Fin N) (k : Fin C) :
    (rowsDims N M C wf).resultIdx? j idx = some (ix2 n k)
      ↔ ((idx (ix2 (j 0) (0 : Fin 1))).toInt = (n.val : ℤ) ∧ j 1 = k) := by
  have hs0 := rows_start0 wf idx j
  have hs1 := rows_start1 wf idx j
  have hw0 := rows_window0 wf j
  have hw1 := rows_window1 wf j
  have hj1 : (j 1).val < C := (j 1).isLt
  have hn : n.val < N := n.isLt
  unfold ScatterDims.resultIdx?
  split
  · rename_i h
    have h0 := h 0
    rw [hs0, hw0] at h0
    constructor
    · intro heq
      have heq' := Option.some.inj heq
      have e0 : ((rowsDims N M C wf).start j idx 0 + ((rowsDims N M C wf).window j 0 : ℤ)).toNat = n.val :=
        congrArg Fin.val (congrFun heq' 0)
      have e1 : ((rowsDims N M C wf).start j idx 1 + ((rowsDims N M C wf).window j 1 : ℤ)).toNat = k.val :=
        congrArg Fin.val (congrFun heq' 1)
      rw [hs0, hw0] at e0
      rw [hs1, hw1] at e1
      refine ⟨by omega, Fin.ext (by omega)⟩
    · rintro ⟨e0, e1⟩
      congr 1
      funext a
      refine Fin.ext ?_
      match a with
      | ⟨0, _⟩ =>
        show ((rowsDims N M C wf).start j idx 0 + ((rowsDims N M C wf).window j 0 : ℤ)).toNat = n.val
        rw [hs0, hw0]; omega
      | ⟨1, _⟩ =>
        show ((rowsDims N M C wf).start j idx 1 + ((rowsDims N M C wf).window j 1 : ℤ)).toNat = k.val
        rw [hs1, hw1, e1]; omega
  · rename_i h
    constructor
    · intro heq; exact absurd heq (by simp)
    · rintro ⟨e0, e1⟩
      exfalso; apply h
      intro a
      match a with
      | ⟨0, _⟩ =>
        show 0 ≤ (rowsDims N M C wf).start j idx 0 + ((rowsDims N M C wf).window j 0 : ℤ)
          ∧ (rowsDims N M C wf).start j idx 0 + ((rowsDims N M C wf).window j 0 : ℤ) < (N : ℤ)
        rw [hs0, hw0]; omega
      | ⟨1, _⟩ =>
        show 0 ≤ (rowsDims N M C wf).start j idx 1 + ((rowsDims N M C wf).window j 1 : ℤ)
          ∧ (rowsDims N M C wf).start j idx 1 + ((rowsDims N M C wf).window j 1 : ℤ) < (C : ℤ)
        rw [hs1, hw1]; omega

end Rows

/-- Rows of a rank-2 operand: `(x.at[idx].add u) (n, k) = x (n, k) + Σ_{e : word e = n} u (e, k)`. -/
theorem scatterAdd_rows {φ : FTy} {N M C : ℕ}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ 32) (upd : FVec Ideal ⟨2, ![M, C]⟩ φ) (n : Fin N) (k : Fin C) :
    Host.scatterAdd (F := Ideal) ({ updateWindowDims := [1], insertedWindowDims := [0], scatterDimsToOperandDims := [0], indexVectorDim := 1, wf := wf } : ScatterDims ⟨2, ![N, C]⟩ ⟨2, ![M, 1]⟩ ⟨2, ![M, C]⟩) x idx upd (ix2 n k)
      = x (ix2 n k) + ∑ e ∈ Finset.univ.filter (fun e : Fin M => (idx (ix2 e (0 : Fin 1))).toInt = (n.val : ℤ)), upd (ix2 e k) := by
  -- the scattered sum runs over the updates `j` landing on `(n, k)`; `j ↦ j 0` carries them one-to-one onto the rows whose
  -- word is `n`, with inverse `e ↦ (e, k)`
  show x (ix2 n k) + ∑ j ∈ Finset.univ.filter (fun j => (rowsDims N M C wf).resultIdx? j idx = some (ix2 n k)), upd j = _
  congr 1
  refine Finset.sum_bij' (fun j _ => (j 0 : Fin M)) (fun e _ => ix2 e k) ?_ ?_ ?_ ?_ ?_
  · intro j hj
    have hj' := (Finset.mem_filter.1 hj).2
    exact Finset.mem_filter.2 ⟨Finset.mem_univ _, ((rows_resultIdx_iff wf idx j n k).1 hj').1⟩
  · intro e he
    have he' := (Finset.mem_filter.1 he).2
    exact Finset.mem_filter.2 ⟨Finset.mem_univ _, (rows_resultIdx_iff wf idx (ix2 e k) n k).2 ⟨he', rfl⟩⟩
  · intro j hj
    have h1 := ((rows_resultIdx_iff wf idx j n k).1 (Finset.mem_filter.1 hj).2).2
    show ix2 (j 0) k = j
    rw [← h1]; exact (eq_ix2 j).symm
  · intro e he; rfl
  · intro j hj
    have h1 := ((rows_resultIdx_iff wf idx j n k).1 (Finset.mem_filter.1 hj).2).2
    show upd j = upd (ix2 (j 0) k)
    rw [← h1]; exact congrArg upd (eq_ix2 j)

/-- The dimension numbers of the entry scatter, as a record over an arbitrary well-formedness proof. -/
private abbrev vecDims (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Vec
variable {N M : ℕ} (wf : ScatterDims.WF ⟨1, ![N]⟩ ⟨2, ![M, 1]⟩ ⟨1, ![M]⟩ [] [0] [0] 1)
  (idx : IVec ⟨2, ![M, 1]⟩ 32) (j : (⟨1, ![M]⟩ : Shape).Idx)

/-- The window of update `j` starts at the word its entry reads, signed. -/
private theorem vec_start0 : (vecDims N M wf).start j idx 0 = (idx (ix2 (j 0) (0 : Fin 1))).toInt := by
  unfold ScatterDims.start
  rw [dif_pos (show (0 : Fin 1) ∈ (vecDims N M wf).scatterDimsToOperandDims from List.mem_singleton.mpr rfl)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The operand's one axis is an inserted window axis: the window coordinate there is 0. -/
private theorem vec_window0 : (vecDims N M wf).window j 0 = 0 := by
  unfold ScatterDims.window
  rw [dif_neg (show (0 : Fin 1) ∉ (vecDims N M wf).sKept from (by decide : (0 : Fin 1) ∉ (List.finRange 1).filter (· ∉ [(0 : Fin 1)])))]

/-- Update `j` lands on `n` exactly when its word, read signed, is `n` (which includes `0 ≤ word < N`). -/
private theorem vec_resultIdx_iff (n : Fin N) :
    (vecDims N M wf).resultIdx? j idx = some (ix1 n) ↔ (idx (ix2 (j 0) (0 : Fin 1))).toInt = (n.val : ℤ) := by
  have hs0 := vec_start0 wf idx j
  have hw0 := vec_window0 wf j
  have hn : n.val < N := n.isLt
  unfold ScatterDims.resultIdx?
  split
  · rename_i h
    have h0 := h 0
    rw [hs0, hw0] at h0
    constructor
    · intro heq
      have heq' := Option.some.inj heq
      have e0 : ((vecDims N M wf).start j idx 0 + ((vecDims N M wf).window j 0 : ℤ)).toNat = n.val :=
        congrArg Fin.val (congrFun heq' 0)
      rw [hs0, hw0] at e0
      omega
    · intro e0
      congr 1
      funext a
      refine Fin.ext ?_
      match a with
      | ⟨0, _⟩ =>
        show ((vecDims N M wf).start j idx 0 + ((vecDims N M wf).window j 0 : ℤ)).toNat = n.val
        rw [hs0, hw0]; omega
  · rename_i h
    constructor
    · intro heq; exact absurd heq (by simp)
    · intro e0
      exfalso; apply h
      intro a
      match a with
      | ⟨0, _⟩ =>
        show 0 ≤ (vecDims N M wf).start j idx 0 + ((vecDims N M wf).window j 0 : ℤ)
          ∧ (vecDims N M wf).start j idx 0 + ((vecDims N M wf).window j 0 : ℤ) < (N : ℤ)
        rw [hs0, hw0]; omega

end Vec

/-- Entries of a rank-1 operand: `(segment_sum u idx) n = x n + Σ_{e : word e = n} u e`. -/
theorem scatterAdd_vec {φ : FTy} {N M : ℕ}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ 32) (upd : FVec Ideal ⟨1, ![M]⟩ φ) (n : Fin N) :
    Host.scatterAdd (F := Ideal) ({ updateWindowDims := [], insertedWindowDims := [0], scatterDimsToOperandDims := [0], indexVectorDim := 1, wf := wf } : ScatterDims ⟨1, ![N]⟩ ⟨2, ![M, 1]⟩ ⟨1, ![M]⟩) x idx upd (ix1 n)
      = x (ix1 n) + ∑ e ∈ Finset.univ.filter (fun e : Fin M => (idx (ix2 e (0 : Fin 1))).toInt = (n.val : ℤ)), upd (ix1 e) := by
  -- the updates landing on `n` are, through `j ↦ j 0` (inverse: the rank-1 index with coordinate `e`), the entries whose word is `n`
  show x (ix1 n) + ∑ j ∈ Finset.univ.filter (fun j => (vecDims N M wf).resultIdx? j idx = some (ix1 n)), upd j = _
  congr 1
  refine Finset.sum_bij' (fun j _ => (j 0 : Fin M)) (fun e _ => ix1 e) ?_ ?_ ?_ ?_ ?_
  · intro j hj
    exact Finset.mem_filter.2 ⟨Finset.mem_univ _, (vec_resultIdx_iff wf idx j n).1 (Finset.mem_filter.1 hj).2⟩
  · intro e he
    exact Finset.mem_filter.2 ⟨Finset.mem_univ _, (vec_resultIdx_iff wf idx (ix1 e) n).2 (Finset.mem_filter.1 he).2⟩
  · intro j hj
    exact (eq_ix1 j).symm
  · intro e he; rfl
  · intro j hj
    exact congrArg upd (eq_ix1 j)

/-- The dimension numbers of the row gather, as a record over an arbitrary well-formedness proof. -/
private abbrev gRowsDims (N M C : ℕ) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A row gather of a rank-2 operand reads row `min (toNat word) (N - 1)`. -/
theorem gather_rows {α : Type} {N M C : ℕ} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ 32) (e : Fin M) (k : Fin C) :
    Host.gather ({ offsetDims := [1], collapsedSliceDims := [0], operandBatchingDims := [], startIndicesBatchingDims := [], startIndexMap := [0], indexVectorDim := 1, sliceSizes := ![1, C], wf := wf } : GatherDims ⟨2, ![N, C]⟩ ⟨2, ![M, 1]⟩ ⟨2, ![M, C]⟩)
        x idx (ix2 e k)
      = x (ix2 (⟨min (idx (ix2 e (0 : Fin 1))).toInt.toNat (N - 1), by omega⟩ : Fin N) k) := by
  -- axis by axis: the row is the clamped start (no batching, row axis collapsed), the column the offset coordinate `k`
  show x ((gRowsDims N M C wf).operandIdx (ix2 e k) idx) = _
  congr 1
  funext a
  refine Fin.ext ?_
  match a with
  | ⟨0, _⟩ =>
    show (gRowsDims N M C wf).start (ix2 e k) idx 0 + (gRowsDims N M C wf).batchCoord (ix2 e k) 0
      + (gRowsDims N M C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gRowsDims N M C wf).startIndexMap from List.mem_singleton.mpr rfl)]
    have hsi : (gRowsDims N M C wf).siIdx (ix2 e k) ⟨List.idxOf (0 : Fin 2) (gRowsDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gRowsDims N M C wf).start (ix2 e k) idx 1 + (gRowsDims N M C wf).batchCoord (ix2 e k) 1
      + (gRowsDims N M C wf).offCoord (ix2 e k) 1 = k.val
    rw [GatherDims.batchCoord_eq_zero _ _ _ List.not_mem_nil]
    have hst : (gRowsDims N M C wf).start (ix2 e k) idx 1 = 0 := by
      unfold GatherDims.start
      rw [dif_neg (show (1 : Fin 2) ∉ (gRowsDims N M C wf).startIndexMap from (by decide : (1 : Fin 2) ∉ [(0 : Fin 2)]))]
    have hoff : (gRowsDims N M C wf).offCoord (ix2 e k) 1 = k.val := by
      unfold GatherDims.offCoord
      rw [dif_pos (show (1 : Fin 2) ∈ (gRowsDims N M C wf).sKept from
        (by decide : (1 : Fin 2) ∈ (List.finRange 2).filter (· ∉ ([(0 : Fin 2)] ++ []))))]
      rfl
    rw [hst, hoff]; omega

/-- The dimension numbers of the entry gather, as a record over an arbitrary well-formedness proof. -/
private abbrev gVecDims (N M : ℕ) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- An entry gather of a rank-1 operand reads entry `min (toNat word) (N - 1)`. -/
theorem gather_vec {α : Type} {N M : ℕ} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ 32) (e : Fin M) :
    Host.gather ({ offsetDims := [], collapsedSliceDims := [0], operandBatchingDims := [], startIndicesBatchingDims := [], startIndexMap := [0], indexVectorDim := 1, sliceSizes := ![1], wf := wf } : GatherDims ⟨1, ![N]⟩ ⟨2, ![M, 1]⟩ ⟨1, ![M]⟩)
        x idx (ix1 e)
      = x (ix1 (⟨min (idx (ix2 e (0 : Fin 1))).toInt.toNat (N - 1), by omega⟩ : Fin N)) := by
  -- the one operand axis is collapsed and not batching: the index read is the clamped start alone
  show x ((gVecDims N M wf).operandIdx (ix1 e) idx) = _
  congr 1
  funext a
  obtain rfl : a = 0 := Subsingleton.elim _ _
  refine Fin.ext ?_
  show (gVecDims N M wf).start (ix1 e) idx 0 + (gVecDims N M wf).batchCoord (ix1 e) 0
    + (gVecDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gVecDims N M wf).startIndexMap from List.mem_singleton.mpr rfl)]
  have hsi : (gVecDims N M wf).siIdx (ix1 e) ⟨List.idxOf (0 : Fin 1) (gVecDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.ScatterRead

end
-- ==== Proof.SumLaws.lean ====
/-
  Laws of finite sums over the extended reals that the graph-convolution equivalence rests on.

  * A non-negative finite factor distributes over a finite sum (on the extended reals a general factor does not).
  * The inverse square root of anything that is at least one is a non-negative finite number.
  * The layer law: summing `h (src e) · (dinv (src e) · dinv (dst e))` over the edges into `n`, plus the self-loop term
    `h n · (dinv n · dinv n)`, is `dinv n` times the sum of the pre-scaled rows `h m · dinv m` over the same edges and `n` itself.
  * A sum over `M + N` indices restricted by a predicate splits into the first `M` and the last `N`.
  * A sum weighted by a 0/1 indicator is the sum over the indicated indices.
  * A sum over `T · R` consecutive indices is a sum over `T` blocks of `R`.
-/
import Idealize.ShloMosaic.PureOps.Ideal

noncomputable section

namespace Cert.SumLaws

open Idealize.ShloMosaic

theorem mul_sum_of_nonneg_ne_top {ι : Type} (s : Finset ι) (f : ι → EReal) {a : EReal} (h0 : 0 ≤ a) (ht : a ≠ ⊤) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

/-- The inverse square root of an extended real that is at least one is a non-negative real number:
    `⊤ ↦ 0`, and a real `r ≥ 1` goes to `(√r)⁻¹ ≥ 0`. -/
private theorem rsqrt_of_one_le {x : EReal} (hx : 1 ≤ x) : 0 ≤ Ideal.rsqrt x ∧ Ideal.rsqrt x ≠ ⊤ := by
  induction x using EReal.rec with
  | bot => exact absurd hx (not_le.mpr (by exact_mod_cast EReal.bot_lt_coe 1))
  | top => simp
  | coe r =>
    have hr : (1 : ℝ) ≤ r := by exact_mod_cast hx
    have h1 : ¬ r < 0 := by linarith
    have h2 : r ≠ 0 := by linarith
    rw [Ideal.rsqrt_coe, if_neg h1, if_neg h2]
    refine ⟨?_, EReal.coe_ne_top _⟩
    exact_mod_cast inv_nonneg.mpr (Real.sqrt_nonneg r)

theorem rsqrt_max_one_nonneg (y : EReal) : 0 ≤ Ideal.rsqrt (max y 1) := by
  exact (rsqrt_of_one_le (le_max_right y 1)).1

theorem rsqrt_max_one_ne_top (y : EReal) : Ideal.rsqrt (max y 1) ≠ ⊤ := by
  exact (rsqrt_of_one_le (le_max_right y 1)).2

/-- The layer law (one feature column `h`). -/
theorem layer_law {E N : ℕ} (src dst : Fin E → Fin N) (dinv : Fin N → EReal) (h0 : ∀ n, 0 ≤ dinv n) (ht : ∀ n, dinv n ≠ ⊤)
    (h : Fin N → EReal) (n : Fin N) :
    (∑ e ∈ Finset.univ.filter (fun e => dst e = n), h (src e) * (dinv (src e) * dinv (dst e))) + h n * (dinv n * dinv n)
      = dinv n * ((0 + ∑ e ∈ Finset.univ.filter (fun e => dst e = n), h (src e) * dinv (src e)) + h n * dinv n) := by
  -- Pull the non-negative finite factor `dinv n` through the outer sum and through the edge sum.
  rw [zero_add, EReal.left_distrib_of_nonneg_of_ne_top (h0 n) (ht n),
    mul_sum_of_nonneg_ne_top _ _ (h0 n) (ht n)]
  congr 1
  · -- On every edge into `n` the destination factor is `dinv n`; the rest is commutativity.
    apply Finset.sum_congr rfl
    intro e he
    rw [(Finset.mem_filter.mp he).2, mul_comm (dinv n) (h (src e) * dinv (src e)), mul_assoc]
  · rw [mul_comm (dinv n) (h n * dinv n), mul_assoc]

/-- A restricted sum over `M + N` indices splits into its first `M` and its last `N` indices. -/
theorem sum_filter_split {M N : ℕ} (p : Fin (M + N) → Prop) [DecidablePred p] (f : Fin (M + N) → EReal) :
    ∑ j ∈ Finset.univ.filter p, f j
      = ∑ e ∈ (Finset.univ : Finset (Fin M)).filter (fun e => p (Fin.castAdd N e)), f (Fin.castAdd N e)
        + ∑ m ∈ (Finset.univ : Finset (Fin N)).filter (fun m => p (Fin.natAdd M m)), f (Fin.natAdd M m) := by
  rw [Finset.sum_filter, Finset.sum_filter, Finset.sum_filter, Fin.sum_univ_add]

/-- A sum restricted to the one index `n`. -/
theorem sum_filter_eq_self {N : ℕ} (f : Fin N → EReal) (n : Fin N) :
    ∑ m ∈ Finset.univ.filter (fun m => m = n), f m = f n := by
  rw [Finset.sum_filter, Finset.sum_ite_eq']
  simp

/-- A sum weighted by an indicator. -/
theorem sum_indicator_mul {ι : Type} [Fintype ι] (P : ι → Prop) [DecidablePred P] (a : ι → EReal) :
    ∑ i, (if P i then (1 : EReal) else 0) * a i = ∑ i ∈ Finset.univ.filter P, a i := by
  rw [Finset.sum_filter]
  apply Finset.sum_congr rfl
  intro i _
  split_ifs
  · rw [one_mul]
  · rw [zero_mul]

/-- A sum over `T · R` consecutive indices, block by block. -/
theorem sum_blocks {T R : ℕ} (f : Fin (T * R) → EReal) :
    ∑ n, f n = ∑ t : Fin T, ∑ r : Fin R, f ⟨t.val * R + r.val, by
      have := t.isLt; have := r.isLt
      calc t.val * R + r.val < t.val * R + R := by omega
        _ = (t.val + 1) * R := by ring
        _ ≤ T * R := Nat.mul_le_mul_right R (by omega)⟩ := by
  -- Re-index by the pair (block, offset) and sum the pairs block by block.
  rw [← (finProdFinEquiv : Fin T × Fin R ≃ Fin (T * R)).sum_comp, Fintype.sum_prod_type]
  apply Finset.sum_congr rfl
  intro t _
  apply Finset.sum_congr rfl
  intro r _
  congr 1
  apply Fin.ext
  simp only [finProdFinEquiv, Equiv.coe_fn_mk]
  rw [Nat.add_comm, Nat.mul_comm]

end Cert.SumLaws

end
-- ==== Proof.KernelHost.lean ====
/-
  The kernel program's host stretches in the program's own operations, read entry by entry.

  Before the first region the program slices the source and destination words out of the 2 × 800000 edge table and
  computes the normaliser column: ones scattered onto the destination words, plus one for the self loop, raised to one
  at least, inverse square root.  Between regions it aggregates the pre-scaled rows: a gather of the rows named by the
  source words (wrapped when negative, brought into range by the gather), scattered onto the rows named by the
  destination words (wrapped when negative), plus the rows themselves for the self loops.  Under the hypothesis that
  every edge word names a node the wrapping and the clamping do nothing, and the scattered sums are `Spec.deg` and
  `Spec.agg`.
-/
import proofs.«420831_j59596966199647_3_alg».proof.Proof.Gen.KernelIdeal
import proofs.«420831_j59596966199647_3_alg».proof.Proof.Spec
import proofs.«420831_j59596966199647_3_alg».proof.Proof.ScatterRead
import proofs.«420831_j59596966199647_3_alg».proof.Proof.SumLaws
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostValue

open Cert.KernelIdeal Cert.KernelIdeal.Gen Idealize.ShloMosaic Idealize.ShloMosaic.ValueIdx

/-- Row `r` of the edge table as a vector of 800000 words (`r = 0`: sources, `r = 1`: destinations). -/
def srcW (ei : IVec S2x800000 32) : IVec S800000 32 :=
  shapeCast S800000 (extractStridedSlice S1x800000 ![0, 0] ei slices_S2x800000_S1x800000_0_0) shapeCasts_S1x800000_S800000
def dstW (ei : IVec S2x800000 32) : IVec S800000 32 :=
  shapeCast S800000 (extractStridedSlice S1x800000 ![1, 0] ei slices_S2x800000_S1x800000_1_0) shapeCasts_S1x800000_S800000

/-- Index words wrapped as jnp wraps a negative index (plus 50000), laid out as a column of start indices. -/
def normColK (w : IVec S800000 32) : IVec S800000x1 32 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 50000#32))) w)

/-- The normaliser column: `rsqrt (max (Σ ones onto the destination words + 1) 1)`, reshaped to 50000 × 1. -/
def dinvColOps (wd : IVec S800000 32) : FVec Ideal S50000x1 .f32 :=
  shapeCast S50000x1
    (Host.rsqrt
      (maximumf
        (addf
          (Host.scatterAdd scatter_S50000_S800000x1_S800000_n_0_0_1
            (broadcastInDim S50000 ![] bcast_S_S50000 (constant S_ .f32 0x00000000#32))
            (broadcastInDim S800000x1 ![0] bcast_S800000_S800000x1_0 wd)
            (broadcastInDim S800000 ![] bcast_S_S800000 (constant S_ .f32 0x3F800000#32)))
          (broadcastInDim S50000 ![] bcast_S_S50000 (constant S_ .f32 0x3F800000#32)))
        (broadcastInDim S50000 ![] bcast_S_S50000 (constant S_ .f32 0x3F800000#32))))
    shapeCasts_S50000_S50000x1

/-- The neighbourhood aggregate of the pre-scaled rows `hs`, the self loop added once. -/
def aggOps (ws wd : IVec S800000 32) (hs : FVec Ideal S50000x64 .bf16) : FVec Ideal S50000x64 .f32 :=
  addf
    (Host.scatterAdd scatter_S50000x64_S800000x1_S800000x64_1_0_0_1
      (broadcastInDim S50000x64 ![] bcast_S_S50000x64 (constant S_ .f32 0x00000000#32))
      (normColK wd)
      (extf .f32 (Host.gather gather_S50000x64_S800000x1_S800000x64_1_0_n_n_0_1_164 hs (normColK ws)) bitsLt_bf16_f32))
    (extf .f32 hs bitsLt_bf16_f32)

/-- The f32 pattern `0x3F800000` is the extended real one. -/
private theorem ofBits_one_f32 : Ideal.ofBits .f32 0x3F800000#32 = 1 := by
  simp [Ideal.ofBits, Ideal.ieee, -EReal.coe_mul]; norm_num

/-- The host's inverse square root is entrywise, at extended reals the ideal one. -/
private theorem hostRsqrt_apply {s : Shape} (x : FVec Ideal s .f32) (i : s.Idx) : Host.rsqrt x i = Ideal.rsqrt (x i) := rfl

/-- A scalar float constant broadcast to any shape reads the constant's value everywhere. -/
private theorem bcastConst_apply {t : Shape} (h : S_.BroadcastsInDim t (![] : Fin 0 → Fin t.rank)) (b : BitVec 32) (j : t.Idx) :
    broadcastInDim t ![] h (constant (F := Ideal) S_ .f32 b) j = Ideal.ofBits .f32 b := rfl

/-- The zero constant broadcast to any shape reads the extended real zero. -/
private theorem bcastZero_apply {t : Shape} (h : S_.BroadcastsInDim t (![] : Fin 0 → Fin t.rank)) (j : t.Idx) :
    broadcastInDim t ![] h (constant (F := Ideal) S_ .f32 0x00000000#32) j = 0 :=
  (bcastConst_apply h _ j).trans Ideal.ofBits_zero_f32

/-- The one constant broadcast to any shape reads the extended real one. -/
private theorem bcastOne_apply {t : Shape} (h : S_.BroadcastsInDim t (![] : Fin 0 → Fin t.rank)) (j : t.Idx) :
    broadcastInDim t ![] h (constant (F := Ideal) S_ .f32 0x3F800000#32) j = 1 :=
  (bcastConst_apply h _ j).trans ofBits_one_f32

/-- A vector laid out as a column reads, at `(e, 0)`, the vector at `e`. -/
private theorem col_apply {α : Type} (w : S800000.Idx → α) (e : Fin 800000) :
    broadcastInDim S800000x1 ![0] bcast_S800000_S800000x1_0 w (ix2 e (0 : Fin 1)) = w (ix1 e) :=
  broadcastInDim_apply _ _ w _ (ix1 e) (fun a => by
    match a with
    | ⟨0, _⟩ =>
      show e.val = if (800000 : ℕ) = 1 then 0 else e.val
      exact (if_neg (by decide)).symm)

/-- A word that is not negative is not wrapped: the column of start indices reads the word itself. -/
private theorem normColK_apply (w : IVec S800000 32) (e : Fin 800000) (h0 : 0 ≤ (w (ix1 e)).toInt) :
    normColK w (ix2 e (0 : Fin 1)) = w (ix1 e) := by
  unfold normColK
  rw [col_apply]
  show Scalar.select (IntOp.cmpi .slt (w (ix1 e)) 0#32) _ (w (ix1 e)) = w (ix1 e)
  have hc : IntOp.cmpi .slt (w (ix1 e)) 0#32 = 0#1 := eq_zero_of_ne_one (fun h => by
    rw [IntOp.cmpi_slt, show (0#32 : BitVec 32).toInt = 0 from by decide] at h
    omega)
  rw [hc, select_zero]

/-- A word in `[0, 50000)` reads, signed, as `n` exactly when the node it names is `n`. -/
private theorem word_eq_iff {v : BitVec 32} (h : 0 ≤ v.toInt ∧ v.toInt < 50000) (n : Fin 50000) :
    v.toInt = (n.val : ℤ) ↔ Spec.nodeOf v = n := by
  have hv := Spec.nodeOf_val_of_inRange h.1 h.2
  constructor
  · intro e; exact Fin.ext (by omega)
  · intro e; rw [← e]; exact hv.symm

/-- The entry scatter of the program, read at `n`. -/
private theorem scatterVec_read (X : FVec Ideal S50000 .f32) (I : IVec S800000x1 32) (U : FVec Ideal S800000 .f32) (n : Fin 50000) :
    Host.scatterAdd scatter_S50000_S800000x1_S800000_n_0_0_1 X I U (ix1 n)
      = X (ix1 n) + ∑ e ∈ Finset.univ.filter (fun e : Fin 800000 => (I (ix2 e (0 : Fin 1))).toInt = (n.val : ℤ)), U (ix1 e) :=
  Cert.ScatterRead.scatterAdd_vec scatter_S50000_S800000x1_S800000_n_0_0_1.wf X I U n

/-- The row scatter of the program, read at `(n, k)`. -/
private theorem scatterRows_read (X : FVec Ideal S50000x64 .f32) (I : IVec S800000x1 32) (U : FVec Ideal S800000x64 .f32)
    (n : Fin 50000) (k : Fin 64) :
    Host.scatterAdd scatter_S50000x64_S800000x1_S800000x64_1_0_0_1 X I U (ix2 n k)
      = X (ix2 n k) + ∑ e ∈ Finset.univ.filter (fun e : Fin 800000 => (I (ix2 e (0 : Fin 1))).toInt = (n.val : ℤ)), U (ix2 e k) :=
  Cert.ScatterRead.scatterAdd_rows scatter_S50000x64_S800000x1_S800000x64_1_0_0_1.wf X I U n k

/-- The row gather of the program, read at `(e, k)`. -/
private theorem gatherRows_read {α : Type} (X : S50000x64.Idx → α) (I : IVec S800000x1 32) (e : Fin 800000) (k : Fin 64) :
    Host.gather gather_S50000x64_S800000x1_S800000x64_1_0_n_n_0_1_164 X I (ix2 e k)
      = X (ix2 (⟨min (I (ix2 e (0 : Fin 1))).toInt.toNat (50000 - 1), by omega⟩ : Fin 50000) k) :=
  Cert.ScatterRead.gather_rows (by decide) gather_S50000x64_S800000x1_S800000x64_1_0_n_n_0_1_164.wf X I e k

theorem srcW_apply (ei : IVec S2x800000 32) (e : Fin 800000) : srcW ei (ix1 e) = ei (ix2 (0 : Fin 2) e) := by
  -- the reshape drops the unit row axis; the slice from row 0 reads row 0
  unfold srcW
  exact (shapeCast_1a_a_apply _ shapeCasts_S1x800000_S800000 e).trans
    (slice2_axis0_apply 0 ei slices_S2x800000_S1x800000_0_0 (0 : Fin 1) e (0 : Fin 2) rfl)

theorem dstW_apply (ei : IVec S2x800000 32) (e : Fin 800000) : dstW ei (ix1 e) = ei (ix2 (1 : Fin 2) e) := by
  -- the reshape drops the unit row axis; the slice from row 1 reads row 1
  unfold dstW
  exact (shapeCast_1a_a_apply _ shapeCasts_S1x800000_S800000 e).trans
    (slice2_axis0_apply 1 ei slices_S2x800000_S1x800000_1_0 (0 : Fin 1) e (1 : Fin 2) rfl)

/-- The normaliser column at node `n`. -/
theorem dinvColOps_apply (wd : IVec S800000 32) (hd : ∀ e, 0 ≤ (wd e).toInt ∧ (wd e).toInt < 50000) (n : Fin 50000) :
    dinvColOps wd (ix2 n (0 : Fin 1)) = Spec.dinv (fun e => Spec.nodeOf (wd (ix1 e))) n := by
  -- the index column reads the word, every update is one
  have hcol : ∀ e : Fin 800000, broadcastInDim S800000x1 ![0] bcast_S800000_S800000x1_0 wd (ix2 e (0 : Fin 1)) = wd (ix1 e) :=
    fun e => col_apply wd e
  have hone : ∀ e : Fin 800000,
      broadcastInDim S800000 ![] bcast_S_S800000 (constant (F := Ideal) S_ .f32 0x3F800000#32) (ix1 e) = 1 :=
    fun e => bcastOne_apply _ _
  unfold dinvColOps
  -- the reshape to a column reads the vector at `n` (same row-major position)
  rw [shapeCast_apply _ shapeCasts_S50000_S50000x1 (ix2 n (0 : Fin 1)) (ix1 n)
    (by rw [Shape.rowMajor_val_two, Shape.rowMajor_val_one]; show n.val = n.val * 1 + 0; omega)]
  -- inverse square root, maximum and sum are entrywise; the scatter at `n` is its operand there (zero) plus the update of
  -- every edge whose destination word is `n`; the added and the compared constant are one
  rw [hostRsqrt_apply, maximumf_apply, addf_apply, scatterVec_read, bcastZero_apply, bcastOne_apply]
  simp only [hcol, hone]
  -- under the range hypothesis the word is `n` exactly when the node it names is `n`
  unfold Spec.dinv Spec.deg
  rw [Finset.filter_congr (fun e _ => word_eq_iff (hd (ix1 e)) n)]

/-- The aggregate at `(n, k)`. -/
theorem aggOps_apply (ws wd : IVec S800000 32) (hs : ∀ e, 0 ≤ (ws e).toInt ∧ (ws e).toInt < 50000)
    (hd : ∀ e, 0 ≤ (wd e).toInt ∧ (wd e).toInt < 50000) (H : FVec Ideal S50000x64 .bf16) (n : Fin 50000) (k : Fin 64) :
    aggOps ws wd H (ix2 n k)
      = Spec.agg (fun e => Spec.nodeOf (ws (ix1 e))) (fun e => Spec.nodeOf (wd (ix1 e))) (fun m k => H (ix2 m k)) n k := by
  -- under the range hypotheses neither column of start indices is wrapped
  have hwd : ∀ e : Fin 800000, normColK wd (ix2 e (0 : Fin 1)) = wd (ix1 e) := fun e => normColK_apply wd e (hd (ix1 e)).1
  have hws : ∀ e : Fin 800000, normColK ws (ix2 e (0 : Fin 1)) = ws (ix1 e) := fun e => normColK_apply ws e (hs (ix1 e)).1
  -- the gathered row of edge `e` is the row of the node its source word names: the gather's clamp is `nodeOf`'s
  have hrow : ∀ e : Fin 800000, Host.gather gather_S50000x64_S800000x1_S800000x64_1_0_n_n_0_1_164 H (normColK ws) (ix2 e k)
      = H (ix2 (Spec.nodeOf (ws (ix1 e))) k) := fun e => by
    rw [gatherRows_read]
    refine congrArg (fun m => H (ix2 m k)) (Fin.ext ?_)
    show min (normColK ws (ix2 e (0 : Fin 1))).toInt.toNat (50000 - 1) = min (ws (ix1 e)).toInt.toNat 49999
    rw [hws e]
  unfold aggOps
  -- the sum and the widening are entrywise, the widening the identity on extended reals; the scatter at `(n, k)` is its
  -- operand there plus the update row of every edge whose destination word is `n`
  rw [addf_apply, extf_apply, scatterRows_read, bcastZero_apply]
  simp only [extf_apply, hwd, hrow]
  -- the word is `n` exactly when the node it names is `n`
  unfold Spec.agg
  rw [Finset.filter_congr (fun e _ => word_eq_iff (hd (ix1 e)) n)]

end Cert.KernelIdeal.HostValue

end
-- ==== Proof.Region01.lean ====
/-
  What the two linear-layer regions leave in their output arrays, entry by entry, at the extended reals.

  Both regions walk the 50000 node rows in ten blocks of 5000; block `t` of the output depends only on block `t` of the
  row-blocked inputs and on the whole weight matrix, so the output array is one function of the input arrays:
  region 0 writes `(Σ_q x (n, q) · W (q, k)) · dinv n`; region 1 first rebuilds the previous layer's activation
  `max (dinv n · agg (n, q) + b q) 0` and writes `(Σ_q act (n, q) · W (q, k)) · dinv n`.  (A change of float format is the
  identity at this instance, so the bf16 roundings of the kernel do not appear.)
-/
import proofs.«420831_j59596966199647_3_alg».proof.Proof.Gen.KernelIdeal.Frame
import proofs.«420831_j59596966199647_3_alg».proof.Proof.KArr
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.KernelIdeal.KArr

variable (V : (c : Dev nD) → (b : Ref sig .tc) → Buf (Elt Ideal) ((c : Thread nD τ).loc b))

/-! ## Region 0: one block's arithmetic at an entry -/

/-- The zero offsets of a whole-buffer access. -/
theorem zero_offsets : (![0, 0] : Fin 2 → Nat) = fun _ => 0 := funext fun a => by fin_cases a <;> rfl

theorem lhs_dot0_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_dot0_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_dot0_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_dot0_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into a zero accumulator, at an entry: the row of the left factor against the column of the right. -/
theorem matmul0_apply (a : FVec Ideal S5000x128 .bf16) (b : FVec Ideal S128x64 .bf16) (r : Fin 5000) (k : Fin 64) :
    matmul dot_S5000x128_S128x64_S5000x64_1_0_0_1_n_n none a b (constant (F := Ideal) S5000x64 .f32 0x00000000#32) (ix2 r k)
      = ∑ q : Fin 128, a (ix2 r q) * b (ix2 q k) := by
  refine (Ideal.matmul_constant_zero_apply dot_S5000x128_S128x64_S5000x64_1_0_0_1_n_n none a b (ix2 r k)).trans ?_
  rw [← Equiv.sum_comp (ValueIdx.contrEquiv1 dot_S5000x128_S128x64_S5000x64_1_0_0_1_n_n 128 rfl rfl).symm]
  refine Finset.sum_congr rfl fun q _ => ?_
  have hk := ValueIdx.contrEquiv1_symm_val dot_S5000x128_S128x64_S5000x64_1_0_0_1_n_n 128 rfl rfl q
  have el : dot_S5000x128_S128x64_S5000x64_1_0_0_1_n_n.lhsIdx (ix2 r k) ((ValueIdx.contrEquiv1 dot_S5000x128_S128x64_S5000x64_1_0_0_1_n_n 128 rfl rfl).symm q) = ix2 r q := funext fun a => Fin.ext (by
    match a with
    | ⟨0, _⟩ => exact lhs_dot0_0 _ _
    | ⟨1, _⟩ => exact (lhs_dot0_1 _ _).trans hk)
  have er : dot_S5000x128_S128x64_S5000x64_1_0_0_1_n_n.rhsIdx (ix2 r k) ((ValueIdx.contrEquiv1 dot_S5000x128_S128x64_S5000x64_1_0_0_1_n_n 128 rfl rfl).symm q) = ix2 q k := funext fun a => Fin.ext (by
    match a with
    | ⟨0, _⟩ => exact (rhs_dot0_0 _ _).trans hk
    | ⟨1, _⟩ => exact rhs_dot0_1 _ _)
  rw [el, er]

/-- A column spread over 64 lanes reads the column's entry of the same row. -/
theorem spread_col_apply (x : FVec Ideal S5000x1 .f32) (r : Fin 5000) (k : Fin 64) :
    broadcastTo S5000x64 x broadcasts_S5000x1_S5000x64 (ix2 r k) = x (ix2 r (0 : Fin 1)) :=
  broadcastTo_apply x broadcasts_S5000x1_S5000x64 (ix2 r k) (ix2 r (0 : Fin 1)) (fun a => by
    match a with
    | ⟨0, _⟩ => rfl
    | ⟨1, _⟩ => rfl)

/-- Region 0's block arithmetic at an entry: the row of `x` against the column of `W`, scaled by the row's normaliser. -/
theorem pay0_apply (x0 : Vec Ideal S5000x128 .f32) (x1 : Vec Ideal S128x64 .f32) (x2 : Vec Ideal S5000x1 .f32)
    (r : Fin 5000) (k : Fin 64) :
    k0_pay1 (F := Ideal) x0 x1 x2 (ix2 r k)
      = (0 + ∑ q : Fin 128, x0 (ix2 r q) * x1 (ix2 q k)) * x2 (ix2 r (0 : Fin 1)) := by
  unfold k0_pay1
  simp only [shapeCast_self]
  show matmul dot_S5000x128_S128x64_S5000x64_1_0_0_1_n_n none (truncf .bf16 x0 bitsLt_bf16_f32) (truncf .bf16 x1 bitsLt_bf16_f32)
      (constant (F := Ideal) S5000x64 .f32 0x00000000#32) (ix2 r k)
        * broadcastTo S5000x64 x2 broadcasts_S5000x1_S5000x64 (ix2 r k) = _
  rw [matmul0_apply, spread_col_apply, zero_add]
  rfl

/-! ## Region 1: one block's arithmetic at an entry -/

theorem lhs_dot1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_dot1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_dot1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_dot1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The second layer's block product into a zero accumulator, at an entry. -/
theorem matmul1_apply (a : FVec Ideal S5000x64 .bf16) (b : FVec Ideal S64x64 .bf16) (r : Fin 5000) (k : Fin 64) :
    matmul dot_S5000x64_S64x64_S5000x64_1_0_0_1_n_n none a b (constant (F := Ideal) S5000x64 .f32 0x00000000#32) (ix2 r k)
      = ∑ q : Fin 64, a (ix2 r q) * b (ix2 q k) := by
  refine (Ideal.matmul_constant_zero_apply dot_S5000x64_S64x64_S5000x64_1_0_0_1_n_n none a b (ix2 r k)).trans ?_
  rw [← Equiv.sum_comp (ValueIdx.contrEquiv1 dot_S5000x64_S64x64_S5000x64_1_0_0_1_n_n 64 rfl rfl).symm]
  refine Finset.sum_congr rfl fun q _ => ?_
  have hk := ValueIdx.contrEquiv1_symm_val dot_S5000x64_S64x64_S5000x64_1_0_0_1_n_n 64 rfl rfl q
  have el : dot_S5000x64_S64x64_S5000x64_1_0_0_1_n_n.lhsIdx (ix2 r k) ((ValueIdx.contrEquiv1 dot_S5000x64_S64x64_S5000x64_1_0_0_1_n_n 64 rfl rfl).symm q) = ix2 r q := funext fun a => Fin.ext (by
    match a with
    | ⟨0, _⟩ => exact lhs_dot1_0 _ _
    | ⟨1, _⟩ => exact (lhs_dot1_1 _ _).trans hk)
  have er : dot_S5000x64_S64x64_S5000x64_1_0_0_1_n_n.rhsIdx (ix2 r k) ((ValueIdx.contrEquiv1 dot_S5000x64_S64x64_S5000x64_1_0_0_1_n_n 64 rfl rfl).symm q) = ix2 q k := funext fun a => Fin.ext (by
    match a with
    | ⟨0, _⟩ => exact (rhs_dot1_0 _ _).trans hk
    | ⟨1, _⟩ => exact rhs_dot1_1 _ _)
  rw [el, er]

/-- A row spread over 5000 rows reads the row's entry of the same lane. -/
theorem spread_row_apply (x : FVec Ideal S1x64 .f32) (r : Fin 5000) (k : Fin 64) :
    broadcastTo S5000x64 x broadcasts_S1x64_S5000x64 (ix2 r k) = x (ix2 (0 : Fin 1) k) :=
  broadcastTo_apply x broadcasts_S1x64_S5000x64 (ix2 r k) (ix2 (0 : Fin 1) k) (fun a => by
    match a with
    | ⟨0, _⟩ => rfl
    | ⟨1, _⟩ => rfl)

/-- The rebuilt activation of a block, at an entry: `max (dinv · agg + b) 0`. -/
def act1 (x0 : Vec Ideal S5000x64 .f32) (x1 : Vec Ideal S5000x1 .f32) (x2 : Vec Ideal S1x64 .f32) : FVec Ideal S5000x64 .bf16 :=
  truncf .bf16 (maximumf (addf (mulf (broadcastTo S5000x64 x1 broadcasts_S5000x1_S5000x64) x0)
      (broadcastTo S5000x64 x2 broadcasts_S1x64_S5000x64)) (broadcast S5000x64 (Scalar.ofBits (F := Ideal) .f32 0x00000000#32)))
    bitsLt_bf16_f32

theorem act1_apply (x0 : Vec Ideal S5000x64 .f32) (x1 : Vec Ideal S5000x1 .f32) (x2 : Vec Ideal S1x64 .f32)
    (r : Fin 5000) (q : Fin 64) :
    act1 x0 x1 x2 (ix2 r q) = max (x1 (ix2 r (0 : Fin 1)) * x0 (ix2 r q) + x2 (ix2 (0 : Fin 1) q)) 0 := by
  show max (broadcastTo S5000x64 x1 broadcasts_S5000x1_S5000x64 (ix2 r q) * x0 (ix2 r q)
      + broadcastTo S5000x64 x2 broadcasts_S1x64_S5000x64 (ix2 r q)) (Ideal.ofBits .f32 0x00000000#32) = _
  rw [spread_col_apply, spread_row_apply, Ideal.ofBits_zero_f32]

/-- Region 1's block arithmetic at an entry: the rebuilt activation's row against the column of `W`, scaled by the
    row's normaliser. -/
theorem pay1_apply (x0 : Vec Ideal S5000x64 .f32) (x1 : Vec Ideal S5000x1 .f32) (x2 : Vec Ideal S1x64 .f32)
    (x3 : Vec Ideal S64x64 .f32) (r : Fin 5000) (k : Fin 64) :
    k1_pay1 (F := Ideal) x1 x0 x2 x3 (ix2 r k)
      = (0 + ∑ q : Fin 64, max (x1 (ix2 r (0 : Fin 1)) * x0 (ix2 r q) + x2 (ix2 (0 : Fin 1) q)) 0 * x3 (ix2 q k))
          * x1 (ix2 r (0 : Fin 1)) := by
  unfold k1_pay1
  simp only [shapeCast_self]
  show matmul dot_S5000x64_S64x64_S5000x64_1_0_0_1_n_n none (act1 x0 x1 x2) (truncf .bf16 x3 bitsLt_bf16_f32)
      (constant (F := Ideal) S5000x64 .f32 0x00000000#32) (ix2 r k)
        * broadcastTo S5000x64 x1 broadcasts_S5000x1_S5000x64 (ix2 r k) = _
  rw [matmul1_apply, spread_col_apply, zero_add]
  refine congrArg (· * x1 (ix2 r (0 : Fin 1))) (Finset.sum_congr rfl fun q _ => ?_)
  rw [act1_apply]
  rfl

/-! ## Region 0: from the blocks to the array -/

/-- Row `r` of block `t` is row `5000 t + r` of a 50000-row array. -/
def blockRow (t : Nat) (ht : t < 10) (r : Fin 5000) : Fin 50000 := ⟨t * 5000 + r.val, by have := r.isLt; omega⟩

theorem point_lt0 (t : Fin cfg0.N) : t.val < 10 := by
  have h : t.val < cfg0.N := t.isLt
  have e : cfg0.N = 10 := N_0
  omega

/-- The blocks of `x`, `W` and `dinv` that grid point `t` sees, at their literal types. -/
abbrev xblk0 (c : Dev nD) (t : Fin cfg0.N) : Vec Ideal S5000x128 .f32 := iblk0 V c 0 t
abbrev wblk0 (c : Dev nD) (t : Fin cfg0.N) : Vec Ideal S128x64 .f32 := iblk0 V c 1 t
abbrev dblk0 (c : Dev nD) (t : Fin cfg0.N) : Vec Ideal S5000x1 .f32 := iblk0 V c 2 t

/-- Region 0's output as one function of the input arrays. -/
abbrev lin0 (c : Dev nD) : Vec Ideal S50000x64 .bf16 := fun i =>
  (0 + ∑ q : Fin 128, aX V c (ix2 (i 0 : Fin 50000) q) * aW1 V c (ix2 q (i 1 : Fin 64))) * aD V c (ix2 (i 0 : Fin 50000) (0 : Fin 1))

/-- Where the windows' blocks sit at each grid point: the row-blocked windows at block row `t`, the weights whole. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block `t` of `x` holds rows `5000 t … 5000 t + 4999`. -/
theorem xblk0_apply (c : Dev nD) (t : Fin cfg0.N) (r : Fin 5000) (q : Fin 128) :
    xblk0 V c t (ix2 r q) = aX V c (ix2 (blockRow t.val (point_lt0 t) r) q) := by
  obtain ⟨e0, e1, -⟩ := block_indices0 t
  show V c main_arg0 (((cfg0.win 0).blk t).view.emb (ix2 r q)) = V c main_arg0 (ix2 (blockRow t.val (point_lt0 t) r) q)
  refine congrArg (V c main_arg0) (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 128 + 1 * q.val = q.val; rw [e1]; omega

/-- Every point sees the whole weight matrix. -/
theorem wblk0_apply (c : Dev nD) (t : Fin cfg0.N) (q : Fin 128) (k : Fin 64) :
    wblk0 V c t (ix2 q k) = aW1 V c (ix2 q k) := by
  obtain ⟨-, -, e0, e1, -⟩ := block_indices0 t
  show V c main_arg3 (((cfg0.win 1).blk t).view.emb (ix2 q k)) = V c main_arg3 (ix2 q k)
  refine congrArg (V c main_arg3) (funext fun a => Fin.ext ?_)
  match a with
  | ⟨0, _⟩ => show win0_1.index t (0 : Fin 2) * 128 + 1 * q.val = q.val; rw [e0]; omega
  | ⟨1, _⟩ => show win0_1.index t (1 : Fin 2) * 64 + 1 * k.val = k.val; rw [e1]; omega

/-- Block `t` of the normaliser column holds rows `5000 t … 5000 t + 4999`. -/
theorem dblk0_apply (c : Dev nD) (t : Fin cfg0.N) (r : Fin 5000) :
    dblk0 V c t (ix2 r (0 : Fin 1)) = aD V c (ix2 (blockRow t.val (point_lt0 t) r) (0 : Fin 1)) := by
  obtain ⟨-, -, -, -, e0, e1, -⟩ := block_indices0 t
  show V c main_v13 (((cfg0.win 2).blk t).view.emb (ix2 r (0 : Fin 1))) = V c main_v13 (ix2 (blockRow t.val (point_lt0 t) r) (0 : Fin 1))
  refine congrArg (V c main_v13) (funext fun a => Fin.ext ?_)
  match a with
  | ⟨0, _⟩ => show win0_2.index t (0 : Fin 2) * 5000 + 1 * r.val = t.val * 5000 + r.val; rw [e0]; omega
  | ⟨1, _⟩ => show win0_2.index t (1 : Fin 2) * 1 + 1 * (0 : Fin 1).val = (0 : Fin 1).val; rw [e1]; rfl

/-- What grid point `t` writes back is block `t` of `lin0`. -/
theorem flushed0_eq (c : Dev nD) (t : Fin cfg0.N) :
    (dat0 (F := Ideal) V c).flushed 3 t = ((cfg0.win 3).blk t).view.read (Elt Ideal) (lin0 V c) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x64) zero_offsets,
    View.ld_unit_zero (S := S5000x1) zero_offsets]
  funext y
  obtain ⟨r, k, rfl⟩ : ∃ (r : Fin 5000) (k : Fin 64), y = ix2 r k := ⟨y 0, y 1, eq_ix2 y⟩
  obtain ⟨-, -, -, -, -, -, e0, e1⟩ := block_indices0 t
  have hemb : ((cfg0.win 3).blk t).view.emb (ix2 r k) = (ix2 (blockRow t.val (point_lt0 t) r) k : S50000x64.Idx) :=
    funext fun a => Fin.ext (by
      match a with
      | ⟨0, _⟩ => show win0_3.index t (0 : Fin 2) * 5000 + 1 * r.val = t.val * 5000 + r.val; rw [e0]; omega
      | ⟨1, _⟩ => show win0_3.index t (1 : Fin 2) * 64 + 1 * k.val = k.val; rw [e1]; omega)
  show k0_pay1 (F := Ideal) (xblk0 V c t) (wblk0 V c t) (dblk0 V c t) (ix2 r k) = lin0 V c (((cfg0.win 3).blk t).view.emb (ix2 r k))
  rw [hemb]
  refine (pay0_apply (xblk0 V c t) (wblk0 V c t) (dblk0 V c t) r k).trans ?_
  rw [dblk0_apply, Finset.sum_congr rfl (fun q _ => by rw [xblk0_apply, wblk0_apply])]

/-- Every entry of the output array is in the block of the point its row belongs to. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e0, e1⟩ := block_indices0 t
  refine ⟨t, flush0_3 t, ?_⟩
  show i ∈ ((View.whole main_v16).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; rw [e0]; omega
  | ⟨1, _⟩ => show win0_3.index t (1 : Fin 2) * 64 ≤ (i 1).val ∧ (i 1).val < win0_3.index t (1 : Fin 2) * 64 + 64; rw [e1]; omega

/-- Region 0's output array is `lin0`. -/
theorem final0 (c : Dev nD) : out0 V c = lin0 V c :=
  (dat0 (F := Ideal) V c).arrAt_eq_of_cover 3 (lin0 V c) (fun t _ => flushed0_eq V c t) cover0

/-! ## Region 1: from the blocks to the array -/

theorem point_lt1 (t : Fin cfg1.N) : t.val < 10 := by
  have h : t.val < cfg1.N := t.isLt
  have e : cfg1.N = 10 := N_1
  omega

/-- The blocks of the aggregate, `dinv`, the bias row and `W` that grid point `t` sees, at their literal types. -/
abbrev ablk1 (c : Dev nD) (t : Fin cfg1.N) : Vec Ideal S5000x64 .f32 := iblk1 V c 0 t
abbrev dblk1 (c : Dev nD) (t : Fin cfg1.N) : Vec Ideal S5000x1 .f32 := iblk1 V c 1 t
abbrev bblk1 (c : Dev nD) (t : Fin cfg1.N) : Vec Ideal S1x64 .f32 := iblk1 V c 2 t
abbrev wblk1 (c : Dev nD) (t : Fin cfg1.N) : Vec Ideal S64x64 .f32 := iblk1 V c 3 t

/-- Region 1's output as one function of the input arrays. -/
abbrev lin1 (c : Dev nD) : Vec Ideal S50000x64 .bf16 := fun i =>
  (0 + ∑ q : Fin 64,
        max (aD V c (ix2 (i 0 : Fin 50000) (0 : Fin 1)) * aAgg1 V c (ix2 (i 0 : Fin 50000) q) + aB1 V c (ix2 (0 : Fin 1) q)) 0
          * aW2 V c (ix2 q (i 1 : Fin 64)))
      * aD V c (ix2 (i 0 : Fin 50000) (0 : Fin 1))

/-- Where the windows' blocks sit at each grid point: the row-blocked windows at block row `t`, the bias row and the
    weights whole. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block `t` of the aggregate holds rows `5000 t … 5000 t + 4999`. -/
theorem ablk1_apply (c : Dev nD) (t : Fin cfg1.N) (r : Fin 5000) (q : Fin 64) :
    ablk1 V c t (ix2 r q) = aAgg1 V c (ix2 (blockRow t.val (point_lt1 t) r) q) := by
  obtain ⟨e0, e1, -⟩ := block_indices1 t
  show V c main_v34 (((cfg1.win 0).blk t).view.emb (ix2 r q)) = V c main_v34 (ix2 (blockRow t.val (point_lt1 t) r) q)
  refine congrArg (V c main_v34) (funext fun a => Fin.ext ?_)
  match a with
  | ⟨0, _⟩ => show win1_0.index t (0 : Fin 2) * 5000 + 1 * r.val = t.val * 5000 + r.val; rw [e0]; omega
  | ⟨1, _⟩ => show win1_0.index t (1 : Fin 2) * 64 + 1 * q.val = q.val; rw [e1]; omega

/-- Block `t` of the normaliser column holds rows `5000 t … 5000 t + 4999`. -/
theorem dblk1_apply (c : Dev nD) (t : Fin cfg1.N) (r : Fin 5000) :
    dblk1 V c t (ix2 r (0 : Fin 1)) = aD V c (ix2 (blockRow t.val (point_lt1 t) r) (0 : Fin 1)) := by
  obtain ⟨-, -, e0, e1, -⟩ := block_indices1 t
  show V c main_v13 (((cfg1.win 1).blk t).view.emb (ix2 r (0 : Fin 1))) = V c main_v13 (ix2 (blockRow t.val (point_lt1 t) r) (0 : Fin 1))
  refine congrArg (V c main_v13) (funext fun a => Fin.ext ?_)
  match a with
  | ⟨0, _⟩ => show win1_1.index t (0 : Fin 2) * 5000 + 1 * r.val = t.val * 5000 + r.val; rw [e0]; omega
  | ⟨1, _⟩ => show win1_1.index t (1 : Fin 2) * 1 + 1 * (0 : Fin 1).val = (0 : Fin 1).val; rw [e1]; rfl

/-- Every point sees the whole bias row. -/
theorem bblk1_apply (c : Dev nD) (t : Fin cfg1.N) (q : Fin 64) :
    bblk1 V c t (ix2 (0 : Fin 1) q) = aB1 V c (ix2 (0 : Fin 1) q) := by
  obtain ⟨-, -, -, -, e0, e1, -⟩ := block_indices1 t
  show V c main_v14 (((cfg1.win 2).blk t).view.emb (ix2 (0 : Fin 1) q)) = V c main_v14 (ix2 (0 : Fin 1) q)
  refine congrArg (V c main_v14) (funext fun a => Fin.ext ?_)
  match a with
  | ⟨0, _⟩ => show win1_2.index t (0 : Fin 2) * 1 + 1 * (0 : Fin 1).val = (0 : Fin 1).val; rw [e0]; rfl
  | ⟨1, _⟩ => show win1_2.index t (1 : Fin 2) * 64 + 1 * q.val = q.val; rw [e1]; omega

/-- Every point sees the whole weight matrix. -/
theorem wblk1_apply (c : Dev nD) (t : Fin cfg1.N) (q : Fin 64) (k : Fin 64) :
    wblk1 V c t (ix2 q k) = aW2 V c (ix2 q k) := by
  obtain ⟨-, -, -, -, -, -, e0, e1, -⟩ := block_indices1 t
  show V c main_arg5 (((cfg1.win 3).blk t).view.emb (ix2 q k)) = V c main_arg5 (ix2 q k)
  refine congrArg (V c main_arg5) (funext fun a => Fin.ext ?_)
  match a with
  | ⟨0, _⟩ => show win1_3.index t (0 : Fin 2) * 64 + 1 * q.val = q.val; rw [e0]; omega
  | ⟨1, _⟩ => show win1_3.index t (1 : Fin 2) * 64 + 1 * k.val = k.val; rw [e1]; omega

/-- What grid point `t` writes back is block `t` of `lin1`. -/
theorem flushed1_eq (c : Dev nD) (t : Fin cfg1.N) :
    (dat1 (F := Ideal) V c).flushed 4 t = ((cfg1.win 4).blk t).view.read (Elt Ideal) (lin1 V c) := by
  show (cfg1.win 4).cut (grid1.coords t) ((dat1 (F := Ideal) V c).after 4 t) = _
  rw [after1_4]
  unfold out1_4
  rw [View.canon_unit_zero zero_offsets]
  simp only [View.ld_unit_zero (S := S5000x64) zero_offsets, View.ld_unit_zero (S := S5000x1) zero_offsets,
    View.ld_unit_zero (S := S1x64) zero_offsets, View.ld_unit_zero (S := S64x64) zero_offsets]
  funext y
  obtain ⟨r, k, rfl⟩ : ∃ (r : Fin 5000) (k : Fin 64), y = ix2 r k := ⟨y 0, y 1, eq_ix2 y⟩
  obtain ⟨-, -, -, -, -, -, -, -, e0, e1⟩ := block_indices1 t
  have hemb : ((cfg1.win 4).blk t).view.emb (ix2 r k) = (ix2 (blockRow t.val (point_lt1 t) r) k : S50000x64.Idx) :=
    funext fun a => Fin.ext (by
      match a with
      | ⟨0, _⟩ => show win1_4.index t (0 : Fin 2) * 5000 + 1 * r.val = t.val * 5000 + r.val; rw [e0]; omega
      | ⟨1, _⟩ => show win1_4.index t (1 : Fin 2) * 64 + 1 * k.val = k.val; rw [e1]; omega)
  show k1_pay1 (F := Ideal) (dblk1 V c t) (ablk1 V c t) (bblk1 V c t) (wblk1 V c t) (ix2 r k)
    = lin1 V c (((cfg1.win 4).blk t).view.emb (ix2 r k))
  rw [hemb]
  refine (pay1_apply (ablk1 V c t) (dblk1 V c t) (bblk1 V c t) (wblk1 V c t) r k).trans ?_
  rw [dblk1_apply, Finset.sum_congr rfl (fun q _ => by rw [ablk1_apply, bblk1_apply, wblk1_apply])]

/-- Every entry of the output array is in the block of the point its row belongs to. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, e0, e1⟩ := block_indices1 t
  refine ⟨t, flush1_4 t, ?_⟩
  show i ∈ ((View.whole main_v35).slice (win1_4.rect t)).set
  rw [View.set_slice_whole, Rect.mem_set_unit]
  intro a
  match a with
  | ⟨0, _⟩ => show win1_4.index t (0 : Fin 2) * 5000 ≤ (i 0).val ∧ (i 0).val < win1_4.index t (0 : Fin 2) * 5000 + 5000; rw [e0]; omega
  | ⟨1, _⟩ => show win1_4.index t (1 : Fin 2) * 64 ≤ (i 1).val ∧ (i 1).val < win1_4.index t (1 : Fin 2) * 64 + 64; rw [e1]; omega

/-- Region 1's output array is `lin1`. -/
theorem final1 (c : Dev nD) : out1 V c = lin1 V c :=
  (dat1 (F := Ideal) V c).arrAt_eq_of_cover 4 (lin1 V c) (fun t _ => flushed1_eq V c t) cover1

/-- Region 0's output array: row `n` of `x · W`, scaled by `dinv n`. -/
theorem arr0_out (c : Dev nD) (n : Fin 50000) (k : Fin 64) :
    out0 V c (ix2 n k)
      = (0 + ∑ q : Fin 128, aX V c (ix2 n q) * aW1 V c (ix2 q k)) * aD V c (ix2 n (0 : Fin 1)) := by
  exact congrFun (final0 V c) (ix2 n k)

/-- Region 1's output array: row `n` of `act · W`, scaled by `dinv n`, where `act = max (dinv · agg + b) 0`. -/
theorem arr1_out (c : Dev nD) (n : Fin 50000) (k : Fin 64) :
    out1 V c (ix2 n k)
      = (0 + ∑ q : Fin 64,
            max (aD V c (ix2 n (0 : Fin 1)) * aAgg1 V c (ix2 n q) + aB1 V c (ix2 (0 : Fin 1) q)) 0 * aW2 V c (ix2 q k))
          * aD V c (ix2 n (0 : Fin 1)) := by
  exact congrFun (final1 V c) (ix2 n k)

end Cert.KernelIdeal.RegionValue

end
-- ==== Proof.Region2.lean ====
/-
  What the pooling region leaves in its 64 × 64 output array, at the extended reals.

  The region walks the 50000 node rows in ten blocks of 5000 and keeps ONE output block for all of them: the first
  point clears it, and every point adds `Σ_r onehot (r, g) · act (r, k)` over its 5000 rows, where
  `act = max (dinv · agg + b) 0` and `onehot (r, g)` is 1 when row `r`'s graph id is `g` and 0 otherwise.  Zero and one
  annihilate and preserve every extended real, so after the tenth point entry `(g, k)` holds the sum of `act (n, k)` over
  the rows `n` whose graph id is `g`.
-/
import proofs.«420831_j59596966199647_3_alg».proof.Proof.Gen.KernelIdeal.Frame
import proofs.«420831_j59596966199647_3_alg».proof.Proof.KArr
import proofs.«420831_j59596966199647_3_alg».proof.Proof.SumLaws
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.KernelIdeal.KArr

/-! ## The pooling matmul read at an index -/

private theorem lhs_pool_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q
private theorem lhs_pool_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
private theorem rhs_pool_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q
private theorem rhs_pool_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- The pooling product contracts the row axis of both operands: entry `(g, k)` is `Σ_r L (r, g) · R (r, k)`. -/
private theorem pool_matmul_apply (L R : FVec Ideal S5000x64 .f32) (g k : Fin 64) :
    matmul dot_S5000x64_S5000x64_S64x64_0_0_1_1_n_n (some .fp32) L R (constant (F := Ideal) S64x64 .f32 0x00000000#32) (ix2 g k)
      = ∑ r : Fin 5000, L (ix2 r g) * R (ix2 r k) := by
  simp only [matmul]
  rw [Ideal.matmul_constant_zero_apply, ← Equiv.sum_comp (ValueIdx.contrEquiv1 dot_S5000x64_S5000x64_S64x64_0_0_1_1_n_n 5000 rfl rfl).symm]
  refine Finset.sum_congr rfl fun r _ => ?_
  have hk := ValueIdx.contrEquiv1_symm_val dot_S5000x64_S5000x64_S64x64_0_0_1_1_n_n 5000 rfl rfl r
  have el : dot_S5000x64_S5000x64_S64x64_0_0_1_1_n_n.lhsIdx (ix2 g k) ((ValueIdx.contrEquiv1 dot_S5000x64_S5000x64_S64x64_0_0_1_1_n_n 5000 rfl rfl).symm r) = ix2 r g := funext fun a => Fin.ext (by
    match a with
    | ⟨0, _⟩ => exact (lhs_pool_0 _ _).trans hk
    | ⟨1, _⟩ => exact lhs_pool_1 _ _)
  have er : dot_S5000x64_S5000x64_S64x64_0_0_1_1_n_n.rhsIdx (ix2 g k) ((ValueIdx.contrEquiv1 dot_S5000x64_S5000x64_S64x64_0_0_1_1_n_n 5000 rfl rfl).symm r) = ix2 r k := funext fun a => Fin.ext (by
    match a with
    | ⟨0, _⟩ => exact (rhs_pool_0 _ _).trans hk
    | ⟨1, _⟩ => exact rhs_pool_1 _ _)
  rw [el, er]

/-! ## The two operands of the pooling product at an index -/

/-- A one-bit comparison word, widened and read as a signed integer, is the indicator of the equality. -/
private theorem onehot_word (w v : BitVec 32) :
    (FloatOps.sitofp (F := Ideal) .f32 ((IntOp.cmpi .eq w v).setWidth 32) : EReal) = if w = v then 1 else 0 := by
  show ((((IntOp.cmpi .eq w v).setWidth 32).toInt : ℝ) : EReal) = _
  by_cases h : w = v
  · subst h
    simp [IntOp.cmpi]
  · have hb : (w == v) = false := beq_eq_false_iff_ne.mpr h
    simp [IntOp.cmpi, hb, h]

/-- The one-hot operand: `(r, g)` is 1 when row `r`'s graph id is `g`, else 0. -/
private theorem onehot_apply (v15 : Vec Ideal S5000x1 .i32) (r : Fin 5000) (g : Fin 64) :
    (sitofp (F := Ideal) .f32 (extui 32 (cmpi .eq (broadcastTo S5000x64 (shapeCast S5000x1 v15 shapeCasts_S5000x1_S5000x1) broadcasts_S5000x1_S5000x64)
        (iota .tc S5000x64 32 [1] iota_S5000x64_d1_w32)) natLt_1_32) : FVec Ideal S5000x64 .f32) (ix2 r g)
      = if v15 (ix2 r (0 : Fin 1)) = BitVec.ofNat 32 g.val then 1 else 0 := by
  rw [shapeCast_self]
  refine (onehot_word _ _).trans ?_
  have e1 : broadcastTo S5000x64 v15 broadcasts_S5000x1_S5000x64 (ix2 r g) = v15 (ix2 r (0 : Fin 1)) :=
    broadcastTo_apply v15 broadcasts_S5000x1_S5000x64 (ix2 r g) (ix2 r (0 : Fin 1)) (fun a => by
      match a with
      | ⟨0, _⟩ => rfl
      | ⟨1, _⟩ => rfl)
  have e2 : iota .tc S5000x64 32 [1] iota_S5000x64_d1_w32 (ix2 r g) = BitVec.ofNat 32 g.val :=
    iota_single_apply .tc S5000x64 32 1 iota_S5000x64_d1_w32 (ix2 r g)
  rw [e1, e2]

/-- The activation operand: `(r, k)` is `max (dinv r · agg (r, k) + b k) 0`. -/
private theorem act_apply (v3 : Vec Ideal S5000x1 .f32) (v5 : Vec Ideal S5000x64 .f32) (v9 : Vec Ideal S1x64 .f32) (r : Fin 5000) (k : Fin 64) :
    (maximumf (addf (mulf (broadcastTo S5000x64 (shapeCast S5000x1 v3 shapeCasts_S5000x1_S5000x1) broadcasts_S5000x1_S5000x64)
          (shapeCast S5000x64 v5 shapeCasts_S5000x64_S5000x64))
        (broadcastTo S5000x64 (shapeCast S1x64 v9 shapeCasts_S1x64_S1x64) broadcasts_S1x64_S5000x64))
      (broadcast S5000x64 (Scalar.ofBits (F := Ideal) .f32 0x00000000#32)) : FVec Ideal S5000x64 .f32) (ix2 r k)
      = max (v3 (ix2 r (0 : Fin 1)) * v5 (ix2 r k) + v9 (ix2 (0 : Fin 1) k)) 0 := by
  rw [shapeCast_self, shapeCast_self, shapeCast_self]
  have e1 : broadcastTo S5000x64 v3 broadcasts_S5000x1_S5000x64 (ix2 r k) = v3 (ix2 r (0 : Fin 1)) :=
    broadcastTo_apply v3 broadcasts_S5000x1_S5000x64 (ix2 r k) (ix2 r (0 : Fin 1)) (fun a => by
      match a with
      | ⟨0, _⟩ => rfl
      | ⟨1, _⟩ => rfl)
  have e2 : broadcastTo S5000x64 v9 broadcasts_S1x64_S5000x64 (ix2 r k) = v9 (ix2 (0 : Fin 1) k) :=
    broadcastTo_apply v9 broadcasts_S1x64_S5000x64 (ix2 r k) (ix2 (0 : Fin 1) k) (fun a => by
      match a with
      | ⟨0, _⟩ => rfl
      | ⟨1, _⟩ => rfl)
  show max (broadcastTo S5000x64 v3 broadcasts_S5000x1_S5000x64 (ix2 r k) * v5 (ix2 r k) + broadcastTo S5000x64 v9 broadcasts_S1x64_S5000x64 (ix2 r k))
    (Ideal.ofBits .f32 0x00000000#32) = _
  rw [e1, e2, Ideal.ofBits_zero_f32]

/-! ## The two payloads at an index -/

/-- The reset stores zero everywhere. -/
private theorem pay1_apply (g k : Fin 64) : k2_pay1 (F := Ideal) (ix2 g k) = 0 := by
  show Ideal.ofBits .f32 0x00000000#32 = 0
  exact Ideal.ofBits_zero_f32

/-- The accumulation adds, to what the block held, the block's share of the pooled sum. -/
private theorem pay2_apply (v3 : Vec Ideal S5000x1 .f32) (v5 : Vec Ideal S5000x64 .f32) (v9 : Vec Ideal S1x64 .f32)
    (v15 : Vec Ideal S5000x1 .i32) (v23 : Vec Ideal S64x64 .f32) (g k : Fin 64) :
    k2_pay2 (F := Ideal) v3 v5 v9 v15 v23 (ix2 g k)
      = v23 (ix2 g k) + ∑ r : Fin 5000, (if v15 (ix2 r (0 : Fin 1)) = BitVec.ofNat 32 g.val then (1 : EReal) else 0)
          * max (v3 (ix2 r (0 : Fin 1)) * v5 (ix2 r k) + v9 (ix2 (0 : Fin 1) k)) 0 := by
  unfold k2_pay2
  refine (addf_apply _ _ (ix2 g k)).trans ?_
  refine congrArg₂ (· + ·) (congrFun (shapeCast_self v23 _) (ix2 g k)) ?_
  refine (pool_matmul_apply _ _ g k).trans ?_
  refine Finset.sum_congr rfl fun r _ => ?_
  exact congrArg₂ (· * ·) (onehot_apply v15 r g) (act_apply v3 v5 v9 r k)

/-! ## What each case of the body leaves in the output block -/

section Pieces
variable {F : FTy → Type} [FloatOps F]

private theorem hz : (![0, 0] : Fin 2 → Nat) = fun _ => 0 := funext fun a => by fin_cases a <;> rfl

/-- A point other than the first leaves the accumulation over what the block held. -/
private theorem out_B (c : Dev nD) (i : grid2.Coords) (a1 : Memref sig .tc .vmem S5000x64 .f32) (h1 : a1.IsWhole) (a2 : Memref sig .tc .vmem S5000x1 .f32) (h2 : a2.IsWhole)
    (a3 : Memref sig .tc .vmem S1x64 .f32) (h3 : a3.IsWhole) (a4 : Memref sig .tc .vmem S5000x1 .i32) (h4 : a4.IsWhole)
    (a5 : Memref sig .tc .vmem S64x64 .f32) (h5 : a5.IsWhole) (hc : ¬cond2_0 i)
    (x0 : Vec F S5000x64 .f32) (x1 : Vec F S5000x1 .f32) (x2 : Vec F S1x64 .f32) (x3 : Vec F S5000x1 .i32) (xo : Vec F S64x64 .f32) :
    out2_B_4 c i a1 h1 a2 h2 a3 h3 a4 h4 a5 h5 hc x0 x1 x2 x3 xo = k2_pay2 x1 x0 x2 x3 xo := by
  unfold out2_B_4
  rw [View.read_writes_eq_canon _ _ _ (cover2_B_4 c i a1 h1 a2 h2 a3 h3 a4 h4 a5 h5 hc x0 x1 x2 x3 xo)]
  unfold kernelRun2_B
  dsimp only
  sl_unfold_words
  rw [View.canon_unit_zero hz]
  simp only [View.readAt_eq_ld, h1.read_unread, h2.read_unread, h3.read_unread, h4.read_unread, h5.read_unread,
    View.ld_unit_zero (S := S5000x64) hz, View.ld_unit_zero (S := S5000x1) hz, View.ld_unit_zero (S := S1x64) hz,
    View.ld_unit_zero (S := S64x64) hz]

/-- The first point clears the block and leaves the accumulation over the cleared block. -/
private theorem out_A (c : Dev nD) (i : grid2.Coords) (a1 : Memref sig .tc .vmem S5000x64 .f32) (h1 : a1.IsWhole) (a2 : Memref sig .tc .vmem S5000x1 .f32) (h2 : a2.IsWhole)
    (a3 : Memref sig .tc .vmem S1x64 .f32) (h3 : a3.IsWhole) (a4 : Memref sig .tc .vmem S5000x1 .i32) (h4 : a4.IsWhole)
    (a5 : Memref sig .tc .vmem S64x64 .f32) (h5 : a5.IsWhole) (hc : cond2_0 i)
    (x0 : Vec F S5000x64 .f32) (x1 : Vec F S5000x1 .f32) (x2 : Vec F S1x64 .f32) (x3 : Vec F S5000x1 .i32) :
    out2_A_4 c i a1 h1 a2 h2 a3 h3 a4 h4 a5 h5 hc x0 x1 x2 x3 = k2_pay2 x1 x0 x2 x3 (k2_pay1 (F := F)) := by
  unfold out2_A_4
  rw [View.read_writes_eq_canon _ _ _ (cover2_A_4 c i a1 h1 a2 h2 a3 h3 a4 h4 a5 h5 hc x0 x1 x2 x3)]
  unfold kernelRun2_A
  dsimp only
  sl_unfold_words
  rw [View.canon_cons_unit_zero (S := S64x64) hz, View.readCov_unit_zero (S := S64x64) _ hz]
  simp only [View.readAt_eq_ld, h1.read_unread, h2.read_unread, h3.read_unread, h4.read_unread, h5.read_unread,
    View.ld_unit_zero (S := S5000x64) hz, View.ld_unit_zero (S := S5000x1) hz, View.ld_unit_zero (S := S1x64) hz,
    View.ld_unit_zero (S := S64x64) hz]

end Pieces

/-! ## The input blocks at a point, read off the arrays -/

variable (V : (c : Dev nD) → (b : Ref sig .tc) → Buf (Elt Ideal) ((c : Thread nD τ).loc b))

/-- The aggregate's block at a point. -/
private abbrev aggBlk (c : Dev nD) (t : Fin cfg2.N) : Vec Ideal S5000x64 .f32 := iblk2 V c 0 t
/-- The normaliser's block at a point. -/
private abbrev dBlk (c : Dev nD) (t : Fin cfg2.N) : Vec Ideal S5000x1 .f32 := iblk2 V c 1 t
/-- The bias row at a point. -/
private abbrev bBlk (c : Dev nD) (t : Fin cfg2.N) : Vec Ideal S1x64 .f32 := iblk2 V c 2 t
/-- The graph ids' block at a point. -/
private abbrev idBlk (c : Dev nD) (t : Fin cfg2.N) : Vec Ideal S5000x1 .i32 := iblk2 V c 3 t

/-- Row `r` of block `t` is row `5000 t + r` of the array. -/
private def row (t : Fin cfg2.N) (r : Fin 5000) : Fin 50000 :=
  ⟨t.val * 5000 + r.val, by
    have ht : t.val < 10 := lt_of_lt_of_eq t.isLt (show cfg2.N = 10 from N_2)
    have := r.isLt
    omega⟩

/-- The block index maps over the grid: the row windows move one block per point, the bias row and the output block stay. -/
private theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

private theorem aggBlk_apply (c : Dev nD) (t : Fin cfg2.N) (r : Fin 5000) (k : Fin 64) :
    aggBlk V c t (ix2 r k) = aAgg2 V c (ix2 (row t r) k) := by
  obtain ⟨e0, e1, -⟩ := idx_facts t
  show V c main_v53 (((cfg2.win 0).blk t).view.emb (ix2 r k)) = V c main_v53 (ix2 (row t r) k)
  refine congrArg (V c main_v53) (funext fun a => Fin.ext ?_)
  match a with
  | ⟨0, _⟩ => show win2_0.index t (0 : Fin 2) * 5000 + 1 * r.val = t.val * 5000 + r.val; omega
  | ⟨1, _⟩ => show win2_0.index t (1 : Fin 2) * 64 + 1 * k.val = k.val; omega

private theorem dBlk_apply (c : Dev nD) (t : Fin cfg2.N) (r : Fin 5000) :
    dBlk V c t (ix2 r (0 : Fin 1)) = aD V c (ix2 (row t r) (0 : Fin 1)) := by
  obtain ⟨-, -, e0, e1, -⟩ := idx_facts t
  show V c main_v13 (((cfg2.win 1).blk t).view.emb (ix2 r (0 : Fin 1))) = V c main_v13 (ix2 (row t r) (0 : Fin 1))
  refine congrArg (V c main_v13) (funext fun a => Fin.ext ?_)
  match a with
  | ⟨0, _⟩ => show win2_1.index t (0 : Fin 2) * 5000 + 1 * r.val = t.val * 5000 + r.val; omega
  | ⟨1, _⟩ => show win2_1.index t (1 : Fin 2) * 1 + 1 * 0 = 0; omega

private theorem bBlk_apply (c : Dev nD) (t : Fin cfg2.N) (k : Fin 64) :
    bBlk V c t (ix2 (0 : Fin 1) k) = aB2 V c (ix2 (0 : Fin 1) k) := by
  obtain ⟨-, -, -, -, e0, e1, -⟩ := idx_facts t
  show V c main_v15 (((cfg2.win 2).blk t).view.emb (ix2 (0 : Fin 1) k)) = V c main_v15 (ix2 (0 : Fin 1) k)
  refine congrArg (V c main_v15) (funext fun a => Fin.ext ?_)
  match a with
  | ⟨0, _⟩ => show win2_2.index t (0 : Fin 2) * 1 + 1 * 0 = 0; omega
  | ⟨1, _⟩ => show win2_2.index t (1 : Fin 2) * 64 + 1 * k.val = k.val; omega

private theorem idBlk_apply (c : Dev nD) (t : Fin cfg2.N) (r : Fin 5000) :
    idBlk V c t (ix2 r (0 : Fin 1)) = aBatch V c (ix2 (row t r) (0 : Fin 1)) := by
  obtain ⟨-, -, -, -, -, -, e0, e1⟩ := idx_facts t
  show V c main_v54 (((cfg2.win 3).blk t).view.emb (ix2 r (0 : Fin 1))) = V c main_v54 (ix2 (row t r) (0 : Fin 1))
  refine congrArg (V c main_v54) (funext fun a => Fin.ext ?_)
  match a with
  | ⟨0, _⟩ => show win2_3.index t (0 : Fin 2) * 5000 + 1 * r.val = t.val * 5000 + r.val; omega
  | ⟨1, _⟩ => show win2_3.index t (1 : Fin 2) * 1 + 1 * 0 = 0; omega

/-! ## The running sum over the points -/

/-- Row `n`'s term of the pooled sum at `(g, k)`: its activation when its graph id is `g`, zero otherwise. -/
private def term (c : Dev nD) (g k : Fin 64) (n : Fin 50000) : EReal :=
  (if aBatch V c (ix2 n (0 : Fin 1)) = BitVec.ofNat 32 g.val then (1 : EReal) else 0)
    * max (aD V c (ix2 n (0 : Fin 1)) * aAgg2 V c (ix2 n k) + aB2 V c (ix2 (0 : Fin 1) k)) 0

/-- Point `s`'s share: the terms of its 5000 rows. -/
private def share (c : Dev nD) (g k : Fin 64) (s : ℕ) : EReal :=
  if hs : s < cfg2.N then ∑ r : Fin 5000, term V c g k (row ⟨s, hs⟩ r) else 0

/-- What a point adds, in terms of the arrays. -/
private theorem pay2_blocks (c : Dev nD) (t : Fin cfg2.N) (acc : Vec Ideal S64x64 .f32) (g k : Fin 64) :
    k2_pay2 (F := Ideal) (dBlk V c t) (aggBlk V c t) (bBlk V c t) (idBlk V c t) acc (ix2 g k)
      = acc (ix2 g k) + share V c g k t.val := by
  refine (pay2_apply (dBlk V c t) (aggBlk V c t) (bBlk V c t) (idBlk V c t) acc g k).trans ?_
  unfold share
  rw [dif_pos t.isLt]
  refine congrArg (acc (ix2 g k) + ·) (Finset.sum_congr rfl fun r _ => ?_)
  unfold term
  rw [idBlk_apply V c t r, dBlk_apply V c t r, aggBlk_apply V c t r k, bBlk_apply V c t k]

/-- After point `n` the output block holds the shares of the points `0 … n`. -/
private theorem outsAt_eq (c : Dev nD) (g k : Fin 64) : ∀ (n : ℕ) (h : n < cfg2.N),
    outsAt2 V c n h (ix2 g k) = ∑ s ∈ Finset.range (n + 1), share V c g k s
  | 0, h => by
    rw [outsAt2_A V c ⟨0, h⟩ rfl,
      out_A (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
        (ms2_3 ⟨0, h⟩) (hs2_3 ⟨0, h⟩) (ms2_4 ⟨0, h⟩) (hs2_4 ⟨0, h⟩) ((hcond2_0 ⟨0, h⟩).mpr rfl)
        (iblk2 V c 0 ⟨0, h⟩) (iblk2 V c 1 ⟨0, h⟩) (iblk2 V c 2 ⟨0, h⟩) (iblk2 V c 3 ⟨0, h⟩)]
    refine (pay2_blocks V c ⟨0, h⟩ (k2_pay1 (F := Ideal)) g k).trans ?_
    rw [pay1_apply, zero_add, Finset.sum_range_one]
  | n + 1, h => by
    have hN : cfg2.N = 10 := N_2
    have hB : ¬(⟨n + 1, h⟩ : Fin cfg2.N).val % 10 = 0 := by dsimp only; omega
    rw [outsAt2_B V c ⟨n + 1, h⟩ hB,
      out_B (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
        (ms2_3 ⟨n + 1, h⟩) (hs2_3 ⟨n + 1, h⟩) (ms2_4 ⟨n + 1, h⟩) (hs2_4 ⟨n + 1, h⟩) (fun hh => hB ((hcond2_0 ⟨n + 1, h⟩).mp hh))
        (iblk2 V c 0 ⟨n + 1, h⟩) (iblk2 V c 1 ⟨n + 1, h⟩) (iblk2 V c 2 ⟨n + 1, h⟩) (iblk2 V c 3 ⟨n + 1, h⟩)
        (outsAt2 V c ((⟨n + 1, h⟩ : Fin cfg2.N).val - 1) (Nat.lt_of_le_of_lt (Nat.sub_le _ _) (⟨n + 1, h⟩ : Fin cfg2.N).isLt))]
    refine (pay2_blocks V c ⟨n + 1, h⟩ _ g k).trans ?_
    show outsAt2 V c n _ (ix2 g k) + share V c g k (n + 1) = _
    rw [outsAt_eq c g k n, Finset.sum_range_succ _ (n + 1)]

/-! ## From the last point's block to the array -/

/-- What the last point leaves in the output block, as contents of the output array (its one block is the array). -/
private abbrev lastOut (c : Dev nD) : Buf (Elt Ideal) ((c : Thread nD τ).loc main_v55) :=
  outsAt2 V c 9 (by rw [show cfg2.N = 10 from N_2]; decide)

/-- The one write-back, after the last point, writes the block the last point leaves: block `(0, 0)` of a 64 × 64 array
    read through zero offsets is the array. -/
private theorem flushed_eq (c : Dev nD) (t : Fin cfg2.N) (hf : (cfg2.win 4).flush t = true) :
    (dat2 V c).flushed 4 t = ((cfg2.win 4).blk t).view.read (Elt Ideal) (lastOut V c) := by
  have hN : cfg2.N = 10 := N_2
  have h9 : t.val = 9 := by have := (flush2_4 t).mp hf; have := t.isLt; omega
  obtain rfl : t = t2_9 := Fin.ext h9
  show (cfg2.win 4).cut (grid2.coords t2_9) ((dat2 V c).after 4 t2_9) = _
  rw [after2_4]
  have hz' : (fun a => win2_4.index t2_9 a * main_v55.ty.shape.size a) = fun _ => 0 := funext fun a => by fin_cases a <;> decide
  exact (Memref.read_access_unit_zero (Elt Ideal) main_v55 hz' (fun a => by rw [congrFun hz' a]; simp) (lastOut V c)).symm

/-- So the output array ends holding what the last point leaves. -/
private theorem out2_eq_last (c : Dev nD) : out2 V c = lastOut V c :=
  (dat2 V c).arrAt_eq_of_cover 4 (lastOut V c) (flushed_eq V c) fun i =>
    ⟨t2_9, (flush2_4 t2_9).mpr rfl, by
      show i ∈ ((View.whole main_v55).slice (win2_4.rect t2_9)).set
      rw [View.set_slice_whole, Rect.mem_set_unit]
      intro a
      have h0 : (i 0 : Nat) < 64 := (i 0).isLt
      have h1 : (i 1 : Nat) < 64 := (i 1).isLt
      match a with
      | ⟨0, _⟩ => show win2_4.index t2_9 0 * win2_4.size 0 ≤ (i 0 : Nat) ∧ (i 0 : Nat) < win2_4.index t2_9 0 * win2_4.size 0 + win2_4.xsize (grid2.coords t2_9) 0
                  rw [show win2_4.index t2_9 0 * win2_4.size 0 = 0 from by decide +kernel, show win2_4.xsize (grid2.coords t2_9) 0 = 64 from by decide +kernel]; omega
      | ⟨1, _⟩ => show win2_4.index t2_9 1 * win2_4.size 1 ≤ (i 1 : Nat) ∧ (i 1 : Nat) < win2_4.index t2_9 1 * win2_4.size 1 + win2_4.xsize (grid2.coords t2_9) 1
                  rw [show win2_4.index t2_9 1 * win2_4.size 1 = 0 from by decide +kernel, show win2_4.xsize (grid2.coords t2_9) 1 = 64 from by decide +kernel]; omega⟩

/-! ## The ten shares are the sum over all rows; the indicator is the graph-id test -/

/-- The word of a graph number below 64, read as a signed integer, is that number. -/
private theorem toInt_ofNat_small (g : Fin 64) : (BitVec.ofNat 32 g.val).toInt = (g.val : ℤ) := by
  have hg := g.isLt
  have h1 : (BitVec.ofNat 32 g.val).toNat = g.val := by rw [BitVec.toNat_ofNat]; omega
  rw [BitVec.toInt_eq_toNat_of_lt (by rw [h1]; omega), h1]

/-- A 32-bit word is the word of `g` exactly when it reads, signed, as `g`. -/
private theorem word_eq_iff (w : BitVec 32) (g : Fin 64) : w = BitVec.ofNat 32 g.val ↔ w.toInt = (g.val : ℤ) :=
  ⟨fun h => h ▸ toInt_ofNat_small g, fun h => BitVec.eq_of_toInt_eq (h.trans (toInt_ofNat_small g).symm)⟩

/-- The shares of the ten points are the terms of all 50000 rows. -/
private theorem shares_eq_sum (c : Dev nD) (g k : Fin 64) :
    ∑ s ∈ Finset.range (9 + 1), share V c g k s = ∑ n : Fin 50000, term V c g k n := by
  have hN : cfg2.N = 10 := N_2
  rw [Finset.sum_range, Cert.SumLaws.sum_blocks (T := 10) (R := 5000) (term V c g k)]
  refine Finset.sum_congr rfl fun t _ => ?_
  unfold share
  rw [dif_pos (by have := t.isLt; omega)]
  rfl

/-- The pooled array: `Σ_{n : batch n = g} max (dinv n · agg (n, k) + b k) 0`. -/
theorem arr2_out (c : Dev nD) (g k : Fin 64) :
    out2 V c (ix2 g k)
      = ∑ n ∈ Finset.univ.filter (fun n : Fin 50000 => (aBatch V c (ix2 n (0 : Fin 1))).toInt = (g.val : ℤ)),
          max (aD V c (ix2 n (0 : Fin 1)) * aAgg2 V c (ix2 n k) + aB2 V c (ix2 (0 : Fin 1) k)) 0 := by
  rw [out2_eq_last V c]
  refine (outsAt_eq V c g k 9 _).trans ?_
  rw [shares_eq_sum V c g k]
  unfold term
  rw [Cert.SumLaws.sum_indicator_mul]
  exact Finset.sum_congr (Finset.filter_congr fun n _ => word_eq_iff _ g) fun _ _ => rfl

end Cert.KernelIdeal.RegionValue

end
-- ==== Proof.KernelValue.lean ====
/-
  The kernel program's result read down to the mathematics.

  The program is six host stretches around three regions.  Following the buffers from the launch memory: the first
  stretch computes the normaliser column and reshapes the biases; region 0 writes the first layer's pre-scaled rows;
  the second stretch aggregates them over the edges; region 1 writes the second layer's pre-scaled rows; the third
  stretch aggregates those and reshapes the graph ids; region 2 pools the second activations; the last three stretches
  are the dense head.  Buffers a stretch or a region does not write keep their contents, so each stage reads what an
  earlier stage left.  With the stretches read by `HostValue` and the regions by `RegionValue`, the pooled array is
  `Spec.sums` of the arguments, and the result is the dense head of it.
-/
import proofs.«420831_j59596966199647_3_alg».proof.Proof.Gen.KernelIdeal.Frame
import proofs.«420831_j59596966199647_3_alg».proof.Proof.KArr
import proofs.«420831_j59596966199647_3_alg».proof.Proof.KernelHost
import proofs.«420831_j59596966199647_3_alg».proof.Proof.Region01
import proofs.«420831_j59596966199647_3_alg».proof.Proof.Region2
import proofs.«420831_j59596966199647_3_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.ValueIdx Cert.KernelIdeal.KArr Cert.KernelIdeal.HostValue Cert.KernelIdeal.RegionValue

variable (m : (ℓ : Loc nD τ sig) → Buf (Elt Ideal) ℓ) (ρ : Dev nD → PrngReg)

/-- A buffer no operation of a host stretch writes keeps its contents across the stretch. -/
macro "host_keep" : tactic => `(tactic| exact StableHlo.after_of_forall_not_mem _ _ (List.forall_iff_forall_mem.mp (by
  simp only [hostOps0, hostOps1, hostOps2, hostOps3, hostOps3_1, hostOps3_2, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide))))

/-! ## The arguments, at their literal types -/

abbrev argX (c : Dev nD) : FVec Ideal S50000x128 .f32 := m ((c : Thread nD τ).loc main_arg0)
abbrev argEi (c : Dev nD) : IVec S2x800000 32 := m ((c : Thread nD τ).loc main_arg1)
abbrev argBatch (c : Dev nD) : IVec S50000 32 := m ((c : Thread nD τ).loc main_arg2)
abbrev argW1 (c : Dev nD) : FVec Ideal S128x64 .f32 := m ((c : Thread nD τ).loc main_arg3)
abbrev argB1 (c : Dev nD) : FVec Ideal S64 .f32 := m ((c : Thread nD τ).loc main_arg4)
abbrev argW2 (c : Dev nD) : FVec Ideal S64x64 .f32 := m ((c : Thread nD τ).loc main_arg5)
abbrev argB2 (c : Dev nD) : FVec Ideal S64 .f32 := m ((c : Thread nD τ).loc main_arg6)
abbrev argWc1 (c : Dev nD) : FVec Ideal S64x32 .f32 := m ((c : Thread nD τ).loc main_arg7)
abbrev argBc1 (c : Dev nD) : FVec Ideal S32 .f32 := m ((c : Thread nD τ).loc main_arg8)
abbrev argWc2 (c : Dev nD) : FVec Ideal S32x1 .f32 := m ((c : Thread nD τ).loc main_arg9)
abbrev argBc2 (c : Dev nD) : FVec Ideal S1 .f32 := m ((c : Thread nD τ).loc main_arg10)

/-! ## What the first stretch leaves -/

theorem W1_v13 (c : Dev nD) : W1 m ρ c (Proc.devRef .tc main_v13) = dinvColOps (dstW (argEi m c)) := by
  show StableHlo.after hostOps0 (W0 m ρ c) (Proc.devRef .tc main_v13) = _
  after_results
  rfl

theorem W1_v1 (c : Dev nD) : W1 m ρ c (Proc.devRef .tc main_v1) = srcW (argEi m c) := by
  show StableHlo.after hostOps0 (W0 m ρ c) (Proc.devRef .tc main_v1) = _
  after_results
  rfl

theorem W1_v3 (c : Dev nD) : W1 m ρ c (Proc.devRef .tc main_v3) = dstW (argEi m c) := by
  show StableHlo.after hostOps0 (W0 m ρ c) (Proc.devRef .tc main_v3) = _
  after_results
  rfl

/-- A bias vector as a 1 × 64 row. -/
def biasRow (b : FVec Ideal S64 .f32) : FVec Ideal S1x64 .f32 := shapeCast S1x64 b shapeCasts_S64_S1x64

theorem W1_v14 (c : Dev nD) : W1 m ρ c (Proc.devRef .tc main_v14) = biasRow (argB1 m c) := by
  show StableHlo.after hostOps0 (W0 m ρ c) (Proc.devRef .tc main_v14) = _
  after_results
  rfl

theorem W1_v15 (c : Dev nD) : W1 m ρ c (Proc.devRef .tc main_v15) = biasRow (argB2 m c) := by
  show StableHlo.after hostOps0 (W0 m ρ c) (Proc.devRef .tc main_v15) = _
  after_results
  rfl

theorem W1_arg0 (c : Dev nD) : W1 m ρ c (Proc.devRef .tc main_arg0) = argX m c := by
  show StableHlo.after hostOps0 (W0 m ρ c) (Proc.devRef .tc main_arg0) = _
  host_keep
theorem W1_arg2 (c : Dev nD) : W1 m ρ c (Proc.devRef .tc main_arg2) = argBatch m c := by
  show StableHlo.after hostOps0 (W0 m ρ c) (Proc.devRef .tc main_arg2) = _
  host_keep
theorem W1_arg3 (c : Dev nD) : W1 m ρ c (Proc.devRef .tc main_arg3) = argW1 m c := by
  show StableHlo.after hostOps0 (W0 m ρ c) (Proc.devRef .tc main_arg3) = _
  host_keep
theorem W1_arg5 (c : Dev nD) : W1 m ρ c (Proc.devRef .tc main_arg5) = argW2 m c := by
  show StableHlo.after hostOps0 (W0 m ρ c) (Proc.devRef .tc main_arg5) = _
  host_keep

/-! ## Buffers carried across the first region and the second stretch -/

theorem W2_v1 (c : Dev nD) : W2 m ρ c (Proc.devRef .tc main_v1) = srcW (argEi m c) :=
  (W2_of_ne m ρ c main_v1 (by decide)).trans (W1_v1 m ρ c)
theorem W2_v3 (c : Dev nD) : W2 m ρ c (Proc.devRef .tc main_v3) = dstW (argEi m c) :=
  (W2_of_ne m ρ c main_v3 (by decide)).trans (W1_v3 m ρ c)
theorem W2_v16 (c : Dev nD) : W2 m ρ c (Proc.devRef .tc main_v16) = out0 (V1 m ρ) c := W2_arr m ρ c 3
theorem W2_v13 (c : Dev nD) : W2 m ρ c (Proc.devRef .tc main_v13) = dinvColOps (dstW (argEi m c)) :=
  ((W2_arr m ρ c 2).trans (((dat0 (V1 m ρ) c).arrAt_in 2 rfl _).trans (A_eq0 (V1 m ρ) c 2))).trans (W1_v13 m ρ c)

theorem W3_v34 (c : Dev nD) :
    W3 m ρ c (Proc.devRef .tc main_v34) = aggOps (srcW (argEi m c)) (dstW (argEi m c)) (out0 (V1 m ρ) c) := by
  show StableHlo.after hostOps1 (W2 m ρ c) (Proc.devRef .tc main_v34) = _
  after_results_simp
  rw [W2_v1, W2_v3, W2_v16]
  rfl

theorem W3_v13 (c : Dev nD) : W3 m ρ c (Proc.devRef .tc main_v13) = dinvColOps (dstW (argEi m c)) :=
  (show StableHlo.after hostOps1 (W2 m ρ c) (Proc.devRef .tc main_v13) = W2 m ρ c (Proc.devRef .tc main_v13) by host_keep).trans
    (W2_v13 m ρ c)
theorem W3_v14 (c : Dev nD) : W3 m ρ c (Proc.devRef .tc main_v14) = biasRow (argB1 m c) :=
  (show StableHlo.after hostOps1 (W2 m ρ c) (Proc.devRef .tc main_v14) = W2 m ρ c (Proc.devRef .tc main_v14) by host_keep).trans
    ((W2_of_ne m ρ c main_v14 (by decide)).trans (W1_v14 m ρ c))
theorem W3_v15 (c : Dev nD) : W3 m ρ c (Proc.devRef .tc main_v15) = biasRow (argB2 m c) :=
  (show StableHlo.after hostOps1 (W2 m ρ c) (Proc.devRef .tc main_v15) = W2 m ρ c (Proc.devRef .tc main_v15) by host_keep).trans
    ((W2_of_ne m ρ c main_v15 (by decide)).trans (W1_v15 m ρ c))
theorem W3_arg5 (c : Dev nD) : W3 m ρ c (Proc.devRef .tc main_arg5) = argW2 m c :=
  (show StableHlo.after hostOps1 (W2 m ρ c) (Proc.devRef .tc main_arg5) = W2 m ρ c (Proc.devRef .tc main_arg5) by host_keep).trans
    ((W2_of_ne m ρ c main_arg5 (by decide)).trans (W1_arg5 m ρ c))
theorem W3_arg2 (c : Dev nD) : W3 m ρ c (Proc.devRef .tc main_arg2) = argBatch m c :=
  (show StableHlo.after hostOps1 (W2 m ρ c) (Proc.devRef .tc main_arg2) = W2 m ρ c (Proc.devRef .tc main_arg2) by host_keep).trans
    ((W2_of_ne m ρ c main_arg2 (by decide)).trans (W1_arg2 m ρ c))
theorem W3_v1 (c : Dev nD) : W3 m ρ c (Proc.devRef .tc main_v1) = srcW (argEi m c) :=
  (show StableHlo.after hostOps1 (W2 m ρ c) (Proc.devRef .tc main_v1) = W2 m ρ c (Proc.devRef .tc main_v1) by host_keep).trans (W2_v1 m ρ c)
theorem W3_v3 (c : Dev nD) : W3 m ρ c (Proc.devRef .tc main_v3) = dstW (argEi m c) :=
  (show StableHlo.after hostOps1 (W2 m ρ c) (Proc.devRef .tc main_v3) = W2 m ρ c (Proc.devRef .tc main_v3) by host_keep).trans (W2_v3 m ρ c)

/-! ## Across the second region and the third stretch -/

theorem W4_v35 (c : Dev nD) : W4 m ρ c (Proc.devRef .tc main_v35) = out1 (V3 m ρ) c := W4_arr m ρ c 4
theorem W4_v1 (c : Dev nD) : W4 m ρ c (Proc.devRef .tc main_v1) = srcW (argEi m c) :=
  (W4_of_ne m ρ c main_v1 (by decide)).trans (W3_v1 m ρ c)
theorem W4_v3 (c : Dev nD) : W4 m ρ c (Proc.devRef .tc main_v3) = dstW (argEi m c) :=
  (W4_of_ne m ρ c main_v3 (by decide)).trans (W3_v3 m ρ c)
theorem W4_v13 (c : Dev nD) : W4 m ρ c (Proc.devRef .tc main_v13) = dinvColOps (dstW (argEi m c)) :=
  ((W4_arr m ρ c 1).trans (((dat1 (V3 m ρ) c).arrAt_in 1 rfl _).trans (A_eq1 (V3 m ρ) c 1))).trans (W3_v13 m ρ c)
theorem W4_v15 (c : Dev nD) : W4 m ρ c (Proc.devRef .tc main_v15) = biasRow (argB2 m c) :=
  (W4_of_ne m ρ c main_v15 (by decide)).trans (W3_v15 m ρ c)
theorem W4_arg2 (c : Dev nD) : W4 m ρ c (Proc.devRef .tc main_arg2) = argBatch m c :=
  (W4_of_ne m ρ c main_arg2 (by decide)).trans (W3_arg2 m ρ c)

theorem W5_v53 (c : Dev nD) :
    W5 m ρ c (Proc.devRef .tc main_v53) = aggOps (srcW (argEi m c)) (dstW (argEi m c)) (out1 (V3 m ρ) c) := by
  show StableHlo.after hostOps2 (W4 m ρ c) (Proc.devRef .tc main_v53) = _
  after_results_simp
  rw [W4_v1, W4_v3, W4_v35]
  rfl

/-- The graph ids as a 50000 × 1 column. -/
def batchCol (b : IVec S50000 32) : IVec S50000x1 32 := shapeCast S50000x1 b shapeCasts_S50000_S50000x1

theorem W5_v54 (c : Dev nD) : W5 m ρ c (Proc.devRef .tc main_v54) = batchCol (argBatch m c) := by
  show StableHlo.after hostOps2 (W4 m ρ c) (Proc.devRef .tc main_v54) = _
  after_results_simp
  rw [W4_arg2]
  rfl

theorem W5_v13 (c : Dev nD) : W5 m ρ c (Proc.devRef .tc main_v13) = dinvColOps (dstW (argEi m c)) :=
  (show StableHlo.after hostOps2 (W4 m ρ c) (Proc.devRef .tc main_v13) = W4 m ρ c (Proc.devRef .tc main_v13) by host_keep).trans
    (W4_v13 m ρ c)
theorem W5_v15 (c : Dev nD) : W5 m ρ c (Proc.devRef .tc main_v15) = biasRow (argB2 m c) :=
  (show StableHlo.after hostOps2 (W4 m ρ c) (Proc.devRef .tc main_v15) = W4 m ρ c (Proc.devRef .tc main_v15) by host_keep).trans
    (W4_v15 m ρ c)

theorem W6_v55 (c : Dev nD) : W6 m ρ c (Proc.devRef .tc main_v55) = out2 (V5 m ρ) c := W6_arr m ρ c 4

/-! ## The reshaped biases and graph ids at an index -/

theorem biasRow_apply (b : FVec Ideal S64 .f32) (q : Fin 64) : biasRow b (ix2 (0 : Fin 1) q) = b (ix1 q) :=
  shapeCast_a_1a_apply b shapeCasts_S64_S1x64 0 q

theorem batchCol_apply (b : IVec S50000 32) (n : Fin 50000) : batchCol b (ix2 n (0 : Fin 1)) = b (ix1 n) :=
  shapeCast_apply b shapeCasts_S50000_S50000x1 _ _ (by
    rw [Shape.rowMajor_val_one, Shape.rowMajor_val_two]
    show n.val = n.val * 1 + 0
    omega)

/-! ## What each region finds in its input arrays -/

section Values

variable (c : Dev nD)

theorem aX_V1 : aX (V1 m ρ) c = argX m c := W1_arg0 m ρ c
theorem aW1_V1 : aW1 (V1 m ρ) c = argW1 m c := W1_arg3 m ρ c
theorem aD_V1 : aD (V1 m ρ) c = dinvColOps (dstW (argEi m c)) := W1_v13 m ρ c
theorem aAgg1_V3 : aAgg1 (V3 m ρ) c = aggOps (srcW (argEi m c)) (dstW (argEi m c)) (out0 (V1 m ρ) c) := W3_v34 m ρ c
theorem aD_V3 : aD (V3 m ρ) c = dinvColOps (dstW (argEi m c)) := W3_v13 m ρ c
theorem aB1_V3 : aB1 (V3 m ρ) c = biasRow (argB1 m c) := W3_v14 m ρ c
theorem aW2_V3 : aW2 (V3 m ρ) c = argW2 m c := W3_arg5 m ρ c
theorem aAgg2_V5 : aAgg2 (V5 m ρ) c = aggOps (srcW (argEi m c)) (dstW (argEi m c)) (out1 (V3 m ρ) c) := W5_v53 m ρ c
theorem aD_V5 : aD (V5 m ρ) c = dinvColOps (dstW (argEi m c)) := W5_v13 m ρ c
theorem aB2_V5 : aB2 (V5 m ρ) c = biasRow (argB2 m c) := W5_v15 m ρ c
theorem aBatch_V5 : aBatch (V5 m ρ) c = batchCol (argBatch m c) := W5_v54 m ρ c

/-! ## The values, under the hypothesis that every edge word names a node -/

variable (hei : ∀ i : S2x800000.Idx, 0 ≤ (argEi m c i).toInt ∧ (argEi m c i).toInt < 50000)
include hei

theorem src_inRange (e : S800000.Idx) : 0 ≤ (srcW (argEi m c) e).toInt ∧ (srcW (argEi m c) e).toInt < 50000 := by
  obtain ⟨p, rfl⟩ : ∃ p : Fin 800000, e = ix1 p := ⟨e 0, eq_ix1 e⟩
  rw [srcW_apply]; exact hei _
theorem dst_inRange (e : S800000.Idx) : 0 ≤ (dstW (argEi m c) e).toInt ∧ (dstW (argEi m c) e).toInt < 50000 := by
  obtain ⟨p, rfl⟩ : ∃ p : Fin 800000, e = ix1 p := ⟨e 0, eq_ix1 e⟩
  rw [dstW_apply]; exact hei _
omit hei in
theorem srcF_eq : (fun e : Fin 800000 => Spec.nodeOf (srcW (argEi m c) (ix1 e))) = Spec.srcOf (argEi m c) := by
  funext e; rw [srcW_apply]; rfl
omit hei in
theorem dstF_eq : (fun e : Fin 800000 => Spec.nodeOf (dstW (argEi m c) (ix1 e))) = Spec.dstOf (argEi m c) := by
  funext e; rw [dstW_apply]; rfl

/-- The normaliser column holds `Spec.dinv`. -/
theorem dinv_val (n : Fin 50000) :
    dinvColOps (dstW (argEi m c)) (ix2 n (0 : Fin 1)) = Spec.dinv (Spec.dstOf (argEi m c)) n := by
  rw [dinvColOps_apply _ (dst_inRange m c hei) n, dstF_eq]

/-- Region 0 writes the first layer's pre-scaled rows. -/
theorem hs1_val (n : Fin 50000) (k : Fin 64) :
    out0 (V1 m ρ) c (ix2 n k)
      = Spec.scaled (Spec.dstOf (argEi m c)) (fun a q => argX m c (ix2 a q)) (fun q b => argW1 m c (ix2 q b)) n k := by
  rw [arr0_out (V1 m ρ) c n k, aX_V1, aW1_V1, aD_V1, dinv_val m c hei n]
  rfl

/-- The second stretch aggregates them. -/
theorem agg1_val (n : Fin 50000) (k : Fin 64) :
    aAgg1 (V3 m ρ) c (ix2 n k)
      = Spec.agg (Spec.srcOf (argEi m c)) (Spec.dstOf (argEi m c))
          (Spec.scaled (Spec.dstOf (argEi m c)) (fun a q => argX m c (ix2 a q)) (fun q b => argW1 m c (ix2 q b))) n k := by
  rw [aAgg1_V3, aggOps_apply _ _ (src_inRange m c hei) (dst_inRange m c hei) _ n k, srcF_eq, dstF_eq]
  have h : (fun a b => out0 (V1 m ρ) c (ix2 a b))
      = Spec.scaled (Spec.dstOf (argEi m c)) (fun a q => argX m c (ix2 a q)) (fun q b => argW1 m c (ix2 q b)) := by
    funext a b; exact hs1_val m ρ c hei a b
  rw [h]

/-- The first layer's activations. -/
abbrev act1 : Fin 50000 → Fin 64 → EReal :=
  Spec.act (Spec.srcOf (argEi m c)) (Spec.dstOf (argEi m c))
    (Spec.scaled (Spec.dstOf (argEi m c)) (fun a q => argX m c (ix2 a q)) (fun q b => argW1 m c (ix2 q b)))
    (fun b => argB1 m c (ix1 b))

/-- Region 1 writes the second layer's pre-scaled rows. -/
theorem hs2_val (n : Fin 50000) (k : Fin 64) :
    out1 (V3 m ρ) c (ix2 n k)
      = Spec.scaled (Spec.dstOf (argEi m c)) (act1 m c) (fun q b => argW2 m c (ix2 q b)) n k := by
  rw [arr1_out (V3 m ρ) c n k, aD_V3, aB1_V3, aW2_V3, dinv_val m c hei n]
  simp only [agg1_val m ρ c hei, biasRow_apply]
  rfl

/-- The third stretch aggregates them. -/
theorem agg2_val (n : Fin 50000) (k : Fin 64) :
    aAgg2 (V5 m ρ) c (ix2 n k)
      = Spec.agg (Spec.srcOf (argEi m c)) (Spec.dstOf (argEi m c))
          (Spec.scaled (Spec.dstOf (argEi m c)) (act1 m c) (fun q b => argW2 m c (ix2 q b))) n k := by
  rw [aAgg2_V5, aggOps_apply _ _ (src_inRange m c hei) (dst_inRange m c hei) _ n k, srcF_eq, dstF_eq]
  have h : (fun a b => out1 (V3 m ρ) c (ix2 a b))
      = Spec.scaled (Spec.dstOf (argEi m c)) (act1 m c) (fun q b => argW2 m c (ix2 q b)) := by
    funext a b; exact hs2_val m ρ c hei a b
  rw [h]

/-- Region 2 pools the second activations: the pooled array is `Spec.sums` of the arguments. -/
theorem sums_val (g k : Fin 64) :
    out2 (V5 m ρ) c (ix2 g k)
      = Spec.sums (Spec.srcOf (argEi m c)) (Spec.dstOf (argEi m c)) (fun a q => argX m c (ix2 a q)) (fun q b => argW1 m c (ix2 q b))
          (fun b => argB1 m c (ix1 b)) (fun q b => argW2 m c (ix2 q b)) (fun b => argB2 m c (ix1 b))
          (fun a => argBatch m c (ix1 a)) g k := by
  rw [arr2_out (V5 m ρ) c g k, aD_V5, aB2_V5, aBatch_V5]
  simp only [agg2_val m ρ c hei, biasRow_apply, batchCol_apply, dinv_val m c hei]
  rfl

end Values

/-! ## The dense head: the last three stretches -/

/-- The dense head both programs end with, in the program's own operations: the per-graph mean (sums over node
    counts, a count of zero read as one), a 64 → 32 linear map with bias and rectifier, a 32 → 1 linear map with bias. -/
def tailK (S : FVec Ideal S64x64 .f32) (x2 : IVec S50000 32) (x7 : FVec Ideal S64x32 .f32) (x8 : FVec Ideal S32 .f32)
    (x9 : FVec Ideal S32x1 .f32) (x10 : FVec Ideal S1 .f32) : FVec Ideal S64x1 .f32 :=
  addf
    (Host.dotGeneral dot_S64x32_S32x1_S64x1_1_0_0_1_n_n none
      (maximumf
        (addf
          (Host.dotGeneral dot_S64x64_S64x32_S64x32_1_0_0_1_n_n none
            (Host.divf S
              (broadcastInDim S64x64 ![0, 1] bcast_S64x1_S64x64_0_1
                (maximumf
                  (Host.scatterAdd scatter_S64x1_S50000x1_S50000x1_1_0_0_1
                    (broadcastInDim S64x1 ![] bcast_S_S64x1 (constant S_ .f32 0x00000000#32))
                    (broadcastInDim S50000x1 ![0] bcast_S50000_S50000x1_0 x2)
                    (broadcastInDim S50000x1 ![] bcast_S_S50000x1 (constant S_ .f32 0x3F800000#32)))
                  (broadcastInDim S64x1 ![] bcast_S_S64x1 (constant S_ .f32 0x3F800000#32)))))
            x7)
          (broadcastInDim S64x32 ![0, 1] bcast_S1x32_S64x32_0_1 (broadcastInDim S1x32 ![1] bcast_S32_S1x32_1 x8)))
        (broadcastInDim S64x32 ![] bcast_S_S64x32 (constant S_ .f32 0x00000000#32)))
      x9)
    (broadcastInDim S64x1 ![0, 1] bcast_S1x1_S64x1_0_1 (broadcastInDim S1x1 ![1] bcast_S1_S1x1_1 x10))

theorem W1_arg7 (c : Dev nD) : W1 m ρ c (Proc.devRef .tc main_arg7) = argWc1 m c := by
  show StableHlo.after hostOps0 (W0 m ρ c) (Proc.devRef .tc main_arg7) = _
  host_keep
theorem W6_arg7 (c : Dev nD) : W6 m ρ c (Proc.devRef .tc main_arg7) = argWc1 m c :=
  (W6_of_ne m ρ c main_arg7 (by decide)).trans
    ((show StableHlo.after hostOps2 (W4 m ρ c) (Proc.devRef .tc main_arg7) = W4 m ρ c (Proc.devRef .tc main_arg7) by host_keep).trans
      ((W4_of_ne m ρ c main_arg7 (by decide)).trans
        ((show StableHlo.after hostOps1 (W2 m ρ c) (Proc.devRef .tc main_arg7) = W2 m ρ c (Proc.devRef .tc main_arg7) by host_keep).trans
          ((W2_of_ne m ρ c main_arg7 (by decide)).trans (W1_arg7 m ρ c)))))
theorem W1_arg8 (c : Dev nD) : W1 m ρ c (Proc.devRef .tc main_arg8) = argBc1 m c := by
  show StableHlo.after hostOps0 (W0 m ρ c) (Proc.devRef .tc main_arg8) = _
  host_keep
theorem W6_arg8 (c : Dev nD) : W6 m ρ c (Proc.devRef .tc main_arg8) = argBc1 m c :=
  (W6_of_ne m ρ c main_arg8 (by decide)).trans
    ((show StableHlo.after hostOps2 (W4 m ρ c) (Proc.devRef .tc main_arg8) = W4 m ρ c (Proc.devRef .tc main_arg8) by host_keep).trans
      ((W4_of_ne m ρ c main_arg8 (by decide)).trans
        ((show StableHlo.after hostOps1 (W2 m ρ c) (Proc.devRef .tc main_arg8) = W2 m ρ c (Proc.devRef .tc main_arg8) by host_keep).trans
          ((W2_of_ne m ρ c main_arg8 (by decide)).trans (W1_arg8 m ρ c)))))
theorem W1_arg9 (c : Dev nD) : W1 m ρ c (Proc.devRef .tc main_arg9) = argWc2 m c := by
  show StableHlo.after hostOps0 (W0 m ρ c) (Proc.devRef .tc main_arg9) = _
  host_keep
theorem W6_arg9 (c : Dev nD) : W6 m ρ c (Proc.devRef .tc main_arg9) = argWc2 m c :=
  (W6_of_ne m ρ c main_arg9 (by decide)).trans
    ((show StableHlo.after hostOps2 (W4 m ρ c) (Proc.devRef .tc main_arg9) = W4 m ρ c (Proc.devRef .tc main_arg9) by host_keep).trans
      ((W4_of_ne m ρ c main_arg9 (by decide)).trans
        ((show StableHlo.after hostOps1 (W2 m ρ c) (Proc.devRef .tc main_arg9) = W2 m ρ c (Proc.devRef .tc main_arg9) by host_keep).trans
          ((W2_of_ne m ρ c main_arg9 (by decide)).trans (W1_arg9 m ρ c)))))
theorem W1_arg10 (c : Dev nD) : W1 m ρ c (Proc.devRef .tc main_arg10) = argBc2 m c := by
  show StableHlo.after hostOps0 (W0 m ρ c) (Proc.devRef .tc main_arg10) = _
  host_keep
theorem W6_arg10 (c : Dev nD) : W6 m ρ c (Proc.devRef .tc main_arg10) = argBc2 m c :=
  (W6_of_ne m ρ c main_arg10 (by decide)).trans
    ((show StableHlo.after hostOps2 (W4 m ρ c) (Proc.devRef .tc main_arg10) = W4 m ρ c (Proc.devRef .tc main_arg10) by host_keep).trans
      ((W4_of_ne m ρ c main_arg10 (by decide)).trans
        ((show StableHlo.after hostOps1 (W2 m ρ c) (Proc.devRef .tc main_arg10) = W2 m ρ c (Proc.devRef .tc main_arg10) by host_keep).trans
          ((W2_of_ne m ρ c main_arg10 (by decide)).trans (W1_arg10 m ρ c)))))
theorem W6_arg2 (c : Dev nD) : W6 m ρ c (Proc.devRef .tc main_arg2) = argBatch m c :=
  (W6_of_ne m ρ c main_arg2 (by decide)).trans
    ((show StableHlo.after hostOps2 (W4 m ρ c) (Proc.devRef .tc main_arg2) = W4 m ρ c (Proc.devRef .tc main_arg2) by host_keep).trans
      (W4_arg2 m ρ c))

/-- The kernel program's result is the dense head of its pooled sums: the last three stretches read back at once. -/
theorem W9_v72 (c : Dev nD) :
    W9 m ρ c (Proc.devRef .tc main_v72)
      = tailK (out2 (V5 m ρ) c) (argBatch m c) (argWc1 m c) (argBc1 m c) (argWc2 m c) (argBc2 m c) := by
  show StableHlo.after hostOps3_2 (W8 m ρ c) (Proc.devRef .tc main_v72) = _
  after_results_simp
  rw [W6_v55, W6_arg2, W6_arg7, W6_arg8, W6_arg9, W6_arg10]
  rfl

end Cert.KernelIdeal.KValue

end
-- ==== Proof.RefOps.lean ====
/-
  The reference's graph-convolution layer in the program's own host operations, read entry by entry.

  The reference appends the self loops to the edge list: its source and destination words are the 800000 edge words
  followed by the node numbers 0 … 49999 (an iota).  Its degree is a scattered sum of ones over the 850000 destination
  words; its layer gathers the feature row and the two normalisers of each of the 850000 entries (indices wrapped when
  negative, then brought into range by the gather), multiplies, and scatters the products onto the destination rows.
  Read at a node `n`, under the hypothesis that every edge word names a node, the sum over the 850000 entries splits
  into the sum over the edges that end at `n` and the one self-loop entry `n`.
-/
import proofs.«420831_j59596966199647_3_alg».proof.Proof.Gen.ReferenceIdeal
import proofs.«420831_j59596966199647_3_alg».proof.Proof.Spec
import proofs.«420831_j59596966199647_3_alg».proof.Proof.ScatterRead
import proofs.«420831_j59596966199647_3_alg».proof.Proof.SumLaws
import Idealize.ShloMosaic.Lib.ValueIdx
import Idealize.ShloMosaic.Lib.Pipeline.Value
import Idealize.ShloMosaic.PureOps.Ideal.Laws

noncomputable section

namespace Cert.ReferenceIdeal.RefOps

open Cert.ReferenceIdeal Cert.ReferenceIdeal.Gen Idealize.ShloMosaic Idealize.ShloMosaic.ValueIdx

/-- The 800000 edge words followed by the node numbers 0 … 49999. -/
def catIota (w : IVec S800000 32) : IVec S850000 32 :=
  concatenate S850000 0 [⟨S800000, w⟩, ⟨S50000, iotaInDim S50000 32 0⟩] concatenates_S800000_S50000_S850000_d0

/-- Index words wrapped as jnp wraps a negative index (plus 50000), laid out as a column of start indices. -/
def normCol (w : IVec S850000 32) : IVec S850000x1 32 :=
  broadcastInDim S850000x1 ![0] bcast_S850000_S850000x1_0
    (select (cmpi .slt w (broadcastInDim S850000 ![] bcast_S_S850000 (constantI S_ 32 0#32)))
      (addi w (broadcastInDim S850000 ![] bcast_S_S850000 (constantI S_ 32 50000#32))) w)

/-- The degree: ones scattered onto the destination words. -/
def degOps (d : IVec S850000 32) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- One layer's scattered messages: `H (s j) · (D (s j) · D (d j))` summed onto row `d j`. -/
def layerOps (s d : IVec S850000 32) (D : FVec Ideal S50000 .f32) (H : FVec Ideal S50000x64 .f32) : FVec Ideal S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 d)
    (mulf (Host.gather gather_S50000x64_S850000x1_S850000x64_1_0_n_n_0_1_164 H (normCol s))
      (broadcastInDim S850000x64 ![0, 1] bcast_S850000x1_S850000x64_0_1
        (broadcastInDim S850000x1 ![0] bcast_S850000_S850000x1_0
          (mulf (Host.gather gather_S50000_S850000x1_S850000_n_0_n_n_0_1_1 D (normCol s))
            (Host.gather gather_S50000_S850000x1_S850000_n_0_n_n_0_1_1 D (normCol d))))))

/-- The bit pattern of the float one denotes one. -/
theorem ofBits_one_f32 : Ideal.ofBits .f32 0x3F800000#32 = 1 := by
  simp [Ideal.ofBits, Ideal.ieee]
  rw [← EReal.coe_mul]
  norm_num

/-- An edge entry of the appended list is the edge's own word. -/
private theorem catIota_edge (w : IVec S800000 32) (e : Fin 800000) :
    catIota w (ix1 (Fin.castAdd 50000 e)) = w (ix1 e) := by
  unfold catIota
  refine concatenate_pair_apply_left (t := S850000) (s₁ := S800000) (s₂ := S50000) (0 : Fin 1) w _ concatenates_S800000_S50000_S850000_d0 _ rfl (ix1 e) ?_
  intro b
  match b with
  | ⟨0, _⟩ => rfl

/-- A self-loop entry of the appended list is the node's own number. -/
private theorem catIota_loop (w : IVec S800000 32) (m : Fin 50000) :
    catIota w (ix1 (Fin.natAdd 800000 m)) = BitVec.ofNat 32 m.val := by
  unfold catIota
  refine (concatenate_pair_apply_right (t := S850000) (s₁ := S800000) (s₂ := S50000) (0 : Fin 1) w _ concatenates_S800000_S50000_S850000_d0 _ rfl rfl (ix1 m) ?_ ?_).trans rfl
  · intro b hb
    match b with
    | ⟨0, _⟩ => exact absurd rfl hb
  · show m.val + 800000 = 800000 + m.val
    omega

/-- A column of start indices read at row `j` is the word at `j`. -/
private theorem col_apply {α : Type} (d : S850000.Idx → α) (j : Fin 850000) :
    broadcastInDim S850000x1 ![0] bcast_S850000_S850000x1_0 d (ix2 j (0 : Fin 1)) = d (ix1 j) := by
  refine broadcastInDim_apply _ bcast_S850000_S850000x1_0 d _ (ix1 j) (fun a => ?_)
  match a with
  | ⟨0, _⟩ => show j.val = if (850000 : Nat) = 1 then 0 else j.val; rw [if_neg (by decide)]

/-- A scalar spread over a shape reads the scalar everywhere. -/
private theorem splat_apply {α : Type} {t : Shape} (h : S_.BroadcastsInDim t (![] : Fin 0 → Fin t.rank)) (x : S_.Idx → α) (i : t.Idx) :
    broadcastInDim t ![] h x i = x ix0 :=
  broadcastInDim_apply _ h x i ix0 (fun a => a.elim0)

/-- A word that names a node, read signed, is `n` exactly when the node it names is `n`. -/
private theorem toInt_eq_iff_nodeOf {v : BitVec 32} (h : 0 ≤ v.toInt ∧ v.toInt < 50000) (n : Fin 50000) :
    v.toInt = (n.val : ℤ) ↔ Spec.nodeOf v = n := by
  have hv := Spec.nodeOf_val_of_inRange h.1 h.2
  constructor
  · intro e; apply Fin.ext; omega
  · intro e; rw [← e]; exact hv.symm

/-- The word of a node number, read signed, is the number. -/
private theorem toInt_ofNat_node (m : Fin 50000) : (BitVec.ofNat 32 m.val).toInt = (m.val : ℤ) := by
  have hm := m.isLt
  rw [BitVec.toInt_eq_msb_cond, BitVec.msb_eq_false_iff_two_mul_lt.mpr (by simp [BitVec.toNat_ofNat]; omega)]
  simp [BitVec.toNat_ofNat]; omega

/-- The word of a node number names that node. -/
private theorem nodeOf_ofNat (m : Fin 50000) : Spec.nodeOf (BitVec.ofNat 32 m.val) = m := by
  apply Fin.ext
  have h := toInt_ofNat_node m
  have := m.isLt
  show min (BitVec.ofNat 32 m.val).toInt.toNat 49999 = m.val
  rw [h]; omega

/-- The degree at node `n`: the edges that end at `n`, and one for its self loop. -/
theorem degOps_apply (wd : IVec S800000 32) (hd : ∀ e, 0 ≤ (wd e).toInt ∧ (wd e).toInt < 50000) (n : Fin 50000) :
    degOps (catIota wd) (ix1 n) = Spec.deg (fun e => Spec.nodeOf (wd (ix1 e))) n := by
  unfold degOps
  refine (Cert.ScatterRead.scatterAdd_vec scatter_S50000_S850000x1_S850000_n_0_0_1.wf _ _ _ n).trans ?_
  rw [splat_apply, constant_apply, Ideal.ofBits_zero_f32]
  -- the 850000 entries are the 800000 edges followed by the 50000 self loops
  refine (congrArg (HAdd.hAdd (0 : EReal)) (Cert.SumLaws.sum_filter_split (M := 800000) (N := 50000) _ _)).trans ?_
  unfold Spec.deg
  rw [← add_assoc]
  refine congrArg₂ (· + ·) (congrArg (HAdd.hAdd (0 : EReal)) (Finset.sum_congr (Finset.filter_congr fun e _ => ?_) (fun e _ => ?_)))
    ((Finset.sum_congr (Finset.filter_congr (q := fun m => m = n) fun m _ => ?_) (fun m _ => ?_)).trans
      (Cert.SumLaws.sum_filter_eq_self (fun _ => (1 : EReal)) n))
  · -- an edge entry lands on `n` exactly when the edge ends at `n`
    rw [col_apply, catIota_edge]
    exact toInt_eq_iff_nodeOf (hd (ix1 e)) n
  · -- and contributes one
    rw [splat_apply, constant_apply, ofBits_one_f32]
  · -- a self-loop entry lands on `n` exactly when it is `n`'s own
    rw [col_apply, catIota_loop, toInt_ofNat_node]
    constructor
    · intro e; apply Fin.ext; omega
    · intro e; rw [e]
  · rw [splat_apply, constant_apply, ofBits_one_f32]

/-- A column spread over the 64 features reads, at `(j, k)`, the column's entry `j`. -/
private theorem spread_apply {α : Type} (y : S850000x1.Idx → α) (j : Fin 850000) (k : Fin 64) :
    broadcastInDim S850000x64 ![0, 1] bcast_S850000x1_S850000x64_0_1 y (ix2 j k) = y (ix2 j (0 : Fin 1)) := by
  refine broadcastInDim_apply _ bcast_S850000x1_S850000x64_0_1 y _ (ix2 j (0 : Fin 1)) (fun a => ?_)
  match a with
  | ⟨0, _⟩ => show j.val = if (850000 : Nat) = 1 then 0 else j.val; rw [if_neg (by decide)]
  | ⟨1, _⟩ => show 0 = if (1 : Nat) = 1 then 0 else k.val; rw [if_pos rfl]

/-- The wrapped index column at row `j` is the word itself when the word is not negative. -/
private theorem normCol_apply (w : IVec S850000 32) (j : Fin 850000) (h0 : 0 ≤ (w (ix1 j)).toInt) :
    normCol w (ix2 j (0 : Fin 1)) = w (ix1 j) := by
  have hc : ¬ IntOp.cmpi .slt (w (ix1 j)) 0#32 = 1#1 := by
    intro h1
    have h2 := IntOp.cmpi_slt.mp h1
    have h3 : (0#32 : BitVec 32).toInt = 0 := by decide
    omega
  unfold normCol
  rw [col_apply]
  show Scalar.select (IntOp.cmpi .slt (w (ix1 j)) 0#32) (IntOp.addi (w (ix1 j)) 50000#32) (w (ix1 j)) = w (ix1 j)
  rw [eq_zero_of_ne_one hc, select_zero]

/-- The feature gather reads the row of the node its start word names. -/
private theorem gatherH_apply (H : FVec Ideal S50000x64 .f32) (idx : IVec S850000x1 32) (j : Fin 850000) (k : Fin 64) :
    Host.gather gather_S50000x64_S850000x1_S850000x64_1_0_n_n_0_1_164 H idx (ix2 j k)
      = H (ix2 (Spec.nodeOf (idx (ix2 j (0 : Fin 1)))) k) :=
  Cert.ScatterRead.gather_rows (by norm_num) gather_S50000x64_S850000x1_S850000x64_1_0_n_n_0_1_164.wf H idx j k

/-- The normaliser gather reads the entry of the node its start word names. -/
private theorem gatherD_apply (D : FVec Ideal S50000 .f32) (idx : IVec S850000x1 32) (j : Fin 850000) :
    Host.gather gather_S50000_S850000x1_S850000_n_0_n_n_0_1_1 D idx (ix1 j)
      = D (ix1 (Spec.nodeOf (idx (ix2 j (0 : Fin 1))))) :=
  Cert.ScatterRead.gather_vec (by norm_num) gather_S50000_S850000x1_S850000_n_0_n_n_0_1_1.wf D idx j

/-- The message of entry `j` at feature `k`, when both its words are non-negative. -/
private theorem message_apply (s d : IVec S850000 32) (D : FVec Ideal S50000 .f32) (H : FVec Ideal S50000x64 .f32)
    (j : Fin 850000) (k : Fin 64) (hs0 : 0 ≤ (s (ix1 j)).toInt) (hd0 : 0 ≤ (d (ix1 j)).toInt) :
    mulf (Host.gather gather_S50000x64_S850000x1_S850000x64_1_0_n_n_0_1_164 H (normCol s))
      (broadcastInDim S850000x64 ![0, 1] bcast_S850000x1_S850000x64_0_1
        (broadcastInDim S850000x1 ![0] bcast_S850000_S850000x1_0
          (mulf (Host.gather gather_S50000_S850000x1_S850000_n_0_n_n_0_1_1 D (normCol s))
            (Host.gather gather_S50000_S850000x1_S850000_n_0_n_n_0_1_1 D (normCol d))))) (ix2 j k)
      = H (ix2 (Spec.nodeOf (s (ix1 j))) k) * (D (ix1 (Spec.nodeOf (s (ix1 j)))) * D (ix1 (Spec.nodeOf (d (ix1 j))))) := by
  rw [mulf_apply, gatherH_apply, spread_apply, col_apply, mulf_apply, gatherD_apply, gatherD_apply,
    normCol_apply s j hs0, normCol_apply d j hd0]

/-- The layer at `(n, k)`: the messages of the edges that end at `n`, and the self-loop message. -/
theorem layerOps_apply (ws wd : IVec S800000 32) (hs : ∀ e, 0 ≤ (ws e).toInt ∧ (ws e).toInt < 50000)
    (hd : ∀ e, 0 ≤ (wd e).toInt ∧ (wd e).toInt < 50000) (D : FVec Ideal S50000 .f32) (H : FVec Ideal S50000x64 .f32)
    (n : Fin 50000) (k : Fin 64) :
    layerOps (catIota ws) (catIota wd) D H (ix2 n k)
      = (∑ e ∈ Finset.univ.filter (fun e : Fin 800000 => Spec.nodeOf (wd (ix1 e)) = n),
            H (ix2 (Spec.nodeOf (ws (ix1 e))) k) * (D (ix1 (Spec.nodeOf (ws (ix1 e)))) * D (ix1 (Spec.nodeOf (wd (ix1 e))))))
          + H (ix2 n k) * (D (ix1 n) * D (ix1 n)) := by
  have edge0 : ∀ (w : IVec S800000 32), (∀ e, 0 ≤ (w e).toInt ∧ (w e).toInt < 50000) → ∀ e : Fin 800000,
      0 ≤ (catIota w (ix1 (Fin.castAdd 50000 e))).toInt := by
    intro w hw e; rw [catIota_edge]; exact (hw (ix1 e)).1
  have loop0 : ∀ (w : IVec S800000 32) (m : Fin 50000), 0 ≤ (catIota w (ix1 (Fin.natAdd 800000 m))).toInt := by
    intro w m; rw [catIota_loop, toInt_ofNat_node]; omega
  unfold layerOps
  refine (Cert.ScatterRead.scatterAdd_rows scatter_S50000x64_S850000x1_S850000x64_1_0_0_1.wf _ _ _ n k).trans ?_
  rw [splat_apply, constant_apply, Ideal.ofBits_zero_f32, zero_add]
  -- the 850000 entries are the 800000 edges followed by the 50000 self loops
  refine (Cert.SumLaws.sum_filter_split (M := 800000) (N := 50000) _ _).trans ?_
  refine congrArg₂ (· + ·) (Finset.sum_congr (Finset.filter_congr fun e _ => ?_) (fun e _ => ?_))
    ((Finset.sum_congr (Finset.filter_congr (q := fun m => m = n) fun m _ => ?_) (fun m _ => ?_)).trans
      (Cert.SumLaws.sum_filter_eq_self (fun m => H (ix2 m k) * (D (ix1 m) * D (ix1 m))) n))
  · -- an edge entry lands on row `n` exactly when the edge ends at `n`
    rw [col_apply, catIota_edge]
    exact toInt_eq_iff_nodeOf (hd (ix1 e)) n
  · -- its message is read at the nodes its two words name
    rw [message_apply _ _ D H _ k (edge0 ws hs e) (edge0 wd hd e), catIota_edge, catIota_edge]
  · -- a self-loop entry lands on row `n` exactly when it is `n`'s own
    rw [col_apply, catIota_loop, toInt_ofNat_node]
    constructor
    · intro e; apply Fin.ext; omega
    · intro e; rw [e]
  · -- its message is read at the node itself
    rw [message_apply _ _ D H _ k (loop0 ws m) (loop0 wd m), catIota_loop, catIota_loop, nodeOf_ofNat]

end Cert.ReferenceIdeal.RefOps

end
-- ==== Proof.RefValue.lean ====
/-
  The reference program read down to the mathematics: its pooled second-layer activations are `Spec.sums`, and its
  result is the shared dense head applied to them.

  Layer by layer: the degree stage is `Spec.deg` (so the normaliser is `Spec.dinv`); a layer's scattered messages plus
  bias are, by the layer law, `dinv n · agg n + b` over the pre-scaled rows `h m · dinv m`; the rectifier gives
  `Spec.act`; the next linear map is a plain sum over the 64 features; the pooling scatter is the sum over the nodes of
  a graph.  Everything uses only that the edge words name nodes: no finiteness of the float inputs is needed, because
  the one factor that is distributed over a sum, `dinv n`, is a non-negative finite number whatever the inputs are.
-/
import proofs.«420831_j59596966199647_3_alg».proof.Proof.Gen.ReferenceIdeal.Read
import proofs.«420831_j59596966199647_3_alg».proof.Proof.RefOps

noncomputable section

namespace Cert.ReferenceIdeal.RefValue

open Cert.ReferenceIdeal Cert.ReferenceIdeal.Gen Cert.ReferenceIdeal.Read Idealize.ShloMosaic Idealize.ShloMosaic.ValueIdx

/-- The dense head both programs end with, in the program's own operations: the per-graph mean (sums over node
    counts, a count of zero read as one), a 64 → 32 linear map with bias and rectifier, a 32 → 1 linear map with bias. -/
def tailR (S : FVec Ideal S64x64 .f32) (x2 : IVec S50000 32) (x7 : FVec Ideal S64x32 .f32) (x8 : FVec Ideal S32 .f32)
    (x9 : FVec Ideal S32x1 .f32) (x10 : FVec Ideal S1 .f32) : FVec Ideal S64x1 .f32 :=
  addf
    (Host.dotGeneral dot_S64x32_S32x1_S64x1_1_0_0_1_n_n none
      (maximumf
        (addf
          (Host.dotGeneral dot_S64x64_S64x32_S64x32_1_0_0_1_n_n none
            (Host.divf S
              (broadcastInDim S64x64 ![0, 1] bcast_S64x1_S64x64_0_1
                (maximumf
                  (Host.scatterAdd scatter_S64x1_S50000x1_S50000x1_1_0_0_1
                    (broadcastInDim S64x1 ![] bcast_S_S64x1 (constant S_ .f32 0x00000000#32))
                    (broadcastInDim S50000x1 ![0] bcast_S50000_S50000x1_0 x2)
                    (broadcastInDim S50000x1 ![] bcast_S_S50000x1 (constant S_ .f32 0x3F800000#32)))
                  (broadcastInDim S64x1 ![] bcast_S_S64x1 (constant S_ .f32 0x3F800000#32)))))
            x7)
          (broadcastInDim S64x32 ![0, 1] bcast_S1x32_S64x32_0_1 (broadcastInDim S1x32 ![1] bcast_S32_S1x32_1 x8)))
        (broadcastInDim S64x32 ![] bcast_S_S64x32 (constant S_ .f32 0x00000000#32)))
      x9)
    (broadcastInDim S64x1 ![0, 1] bcast_S1x1_S64x1_0_1 (broadcastInDim S1x1 ![1] bcast_S1_S1x1_1 x10))

/-- The reference's result is the dense head of its pooled sums. -/
theorem val109_eq_tail (x0 : FVec Ideal S50000x128 .f32) (x1 : IVec S2x800000 32) (x2 : IVec S50000 32) (x3 : FVec Ideal S128x64 .f32)
    (x4 : FVec Ideal S64 .f32) (x5 : FVec Ideal S64x64 .f32) (x6 : FVec Ideal S64 .f32) (x7 : FVec Ideal S64x32 .f32)
    (x8 : FVec Ideal S32 .f32) (x9 : FVec Ideal S32x1 .f32) (x10 : FVec Ideal S1 .f32) :
    val_main_v109 (F := Ideal) x0 x1 x2 x3 x4 x5 x6 x7 x8 x9 x10
      = tailR (val_main_v92 (F := Ideal) x0 x1 x2 x3 x4 x5 x6) x2 x7 x8 x9 x10 := by
  -- Both sides are the same chain of operations applied to the pooled sums: unfold the head's definitions.
  simp only [val_main_v109, val_main_v108, val_main_v107, val_main_v106, val_main_v105, val_main_call2_v0, val_main_call2_cst,
    val_main_v104, val_main_v103, val_main_v102, val_main_v101, val_main_v100, val_main_v99, val_main_v98, val_main_v97,
    val_main_cst_21, val_main_v96, val_main_v95, val_main_v94, val_main_cst_20, val_main_v93, val_main_cst_19, tailR]

section Steps

variable (x0 : FVec Ideal S50000x128 .f32) (x1 : IVec S2x800000 32) (x2 : IVec S50000 32) (x3 : FVec Ideal S128x64 .f32)
    (x4 : FVec Ideal S64 .f32) (x5 : FVec Ideal S64x64 .f32) (x6 : FVec Ideal S64 .f32)

/-- The source word of edge `e`: row 0 of the edge table. -/
private theorem v1_word (e : Fin 800000) : val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- The destination word of edge `e`: row 1 of the edge table. -/
private theorem v3_word (e : Fin 800000) : val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- Every source word names a node. -/
private theorem v1_range (hei : ∀ i : S2x800000.Idx, 0 ≤ (x1 i).toInt ∧ (x1 i).toInt < 50000) (e : S800000.Idx) :
    0 ≤ (val_main_v1 (F := Ideal) x1 e).toInt ∧ (val_main_v1 (F := Ideal) x1 e).toInt < 50000 := by
  rw [val_main_v1_apply, val_main_v0_apply]; exact hei _

/-- Every destination word names a node. -/
private theorem v3_range (hei : ∀ i : S2x800000.Idx, 0 ≤ (x1 i).toInt ∧ (x1 i).toInt < 50000) (e : S800000.Idx) :
    0 ≤ (val_main_v3 (F := Ideal) x1 e).toInt ∧ (val_main_v3 (F := Ideal) x1 e).toInt < 50000 := by
  rw [val_main_v3_apply, val_main_v2_apply]; exact hei _

/-- The nodes the source words name are `Spec.srcOf`. -/
private theorem src_fun : (fun e : Fin 800000 => Spec.nodeOf (val_main_v1 (F := Ideal) x1 (ix1 e))) = Spec.srcOf x1 := by
  funext e; rw [v1_word]; rfl

/-- The nodes the destination words name are `Spec.dstOf`. -/
private theorem dst_fun : (fun e : Fin 800000 => Spec.nodeOf (val_main_v3 (F := Ideal) x1 (ix1 e))) = Spec.dstOf x1 := by
  funext e; rw [v3_word]; rfl

/-- The first degree stage is the scattered sum of ones over the destination words and the self loops. -/
private theorem v10_eq : val_main_v10 (F := Ideal) x1 = RefOps.degOps (RefOps.catIota (val_main_v3 (F := Ideal) x1)) := by
  simp only [val_main_v10, val_main_v8, val_main_cst_0, val_main_v9, val_main_v6, val_main_v4, val_main_v7, val_main_cst,
    RefOps.degOps, RefOps.catIota]

/-- The second degree stage is the same scattered sum. -/
private theorem v53_eq : val_main_v53 (F := Ideal) x1 = RefOps.degOps (RefOps.catIota (val_main_v3 (F := Ideal) x1)) := by
  simp only [val_main_v53, val_main_v51, val_main_cst_9, val_main_v52, val_main_v49, val_main_v47, val_main_v50, val_main_cst_8,
    RefOps.degOps, RefOps.catIota]

/-- The first layer's normaliser is `Spec.dinv`. -/
private theorem v13_dinv (hei : ∀ i : S2x800000.Idx, 0 ≤ (x1 i).toInt ∧ (x1 i).toInt < 50000) (n : Fin 50000) :
    val_main_v13 (F := Ideal) x1 (ix1 n) = Spec.dinv (Spec.dstOf x1) n := by
  rw [val_main_v13_apply, val_main_v12_apply, val_main_v11_apply, val_main_cst_1_apply, v10_eq,
    RefOps.degOps_apply _ (v3_range x1 hei) n, dst_fun, Ideal.hostUnary_rsqrt_def, Ideal.maximumf_def, Ideal.ofBits_def,
    RefOps.ofBits_one_f32]
  rfl

/-- The second layer's normaliser is `Spec.dinv` too. -/
private theorem v56_dinv (hei : ∀ i : S2x800000.Idx, 0 ≤ (x1 i).toInt ∧ (x1 i).toInt < 50000) (n : Fin 50000) :
    val_main_v56 (F := Ideal) x1 (ix1 n) = Spec.dinv (Spec.dstOf x1) n := by
  rw [val_main_v56_apply, val_main_v55_apply, val_main_v54_apply, val_main_cst_10_apply, v53_eq,
    RefOps.degOps_apply _ (v3_range x1 hei) n, dst_fun, Ideal.hostUnary_rsqrt_def, Ideal.maximumf_def, Ideal.ofBits_def,
    RefOps.ofBits_one_f32]
  rfl

/-- The first layer's scatter is one layer's messages over the first linear map and the first normaliser. -/
private theorem v42_eq : val_main_v42 (F := Ideal) x0 x1 x3
    = RefOps.layerOps (RefOps.catIota (val_main_v1 (F := Ideal) x1)) (RefOps.catIota (val_main_v3 (F := Ideal) x1))
        (val_main_v13 (F := Ideal) x1) (val_main_v29 (F := Ideal) x0 x3) := by
  simp only [val_main_v42, val_main_v40, val_main_cst_7, val_main_v41, val_main_v39, val_main_v36, val_main_v35, val_main_v34,
    val_main_v31, val_main_v30, val_main_c_5, val_main_v33, val_main_v32, val_main_c_6, val_main_v5, val_main_v6, val_main_v4,
    val_main_v38, val_main_v37, val_main_v28, val_main_v20, val_main_v19, val_main_v18, val_main_v15, val_main_v14, val_main_c,
    val_main_v17, val_main_v16, val_main_c_2, val_main_v27, val_main_v26, val_main_v25, val_main_v22, val_main_v21, val_main_c_3,
    val_main_v24, val_main_v23, val_main_c_4, RefOps.layerOps, RefOps.normCol, RefOps.catIota]

/-- The second layer's scatter is one layer's messages over the second linear map and the second normaliser. -/
private theorem v85_eq : val_main_v85 (F := Ideal) x0 x1 x3 x4 x5
    = RefOps.layerOps (RefOps.catIota (val_main_v1 (F := Ideal) x1)) (RefOps.catIota (val_main_v3 (F := Ideal) x1))
        (val_main_v56 (F := Ideal) x1) (val_main_v72 (F := Ideal) x0 x1 x3 x4 x5) := by
  simp only [val_main_v85, val_main_v83, val_main_cst_17, val_main_v84, val_main_v82, val_main_v79, val_main_v78, val_main_v77,
    val_main_v74, val_main_v73, val_main_c_15, val_main_v76, val_main_v75, val_main_c_16, val_main_v48, val_main_v49, val_main_v47,
    val_main_v81, val_main_v80, val_main_v71, val_main_v63, val_main_v62, val_main_v61, val_main_v58, val_main_v57, val_main_c_11,
    val_main_v60, val_main_v59, val_main_c_12, val_main_v70, val_main_v69, val_main_v68, val_main_v65, val_main_v64, val_main_c_13,
    val_main_v67, val_main_v66, val_main_c_14, RefOps.layerOps, RefOps.normCol, RefOps.catIota]

/-- One layer's scattered messages, read at `(n, k)` through the layer law: `dinv n` times the neighbourhood sum of the
    pre-scaled rows. -/
private theorem layer_read (hei : ∀ i : S2x800000.Idx, 0 ≤ (x1 i).toInt ∧ (x1 i).toInt < 50000)
    (D : FVec Ideal S50000 .f32) (hD : ∀ m : Fin 50000, D (ix1 m) = Spec.dinv (Spec.dstOf x1) m)
    (H : FVec Ideal S50000x64 .f32) (n : Fin 50000) (k : Fin 64) :
    RefOps.layerOps (RefOps.catIota (val_main_v1 (F := Ideal) x1)) (RefOps.catIota (val_main_v3 (F := Ideal) x1)) D H (ix2 n k)
      = Spec.dinv (Spec.dstOf x1) n
          * Spec.agg (Spec.srcOf x1) (Spec.dstOf x1) (fun m k => H (ix2 m k) * Spec.dinv (Spec.dstOf x1) m) n k := by
  rw [RefOps.layerOps_apply _ _ (v1_range x1 hei) (v3_range x1 hei) D H n k]
  simp only [hD]
  have hs := src_fun x1
  have hd := dst_fun x1
  have key := Cert.SumLaws.layer_law (Spec.srcOf x1) (Spec.dstOf x1) (Spec.dinv (Spec.dstOf x1))
    (fun m => Cert.SumLaws.rsqrt_max_one_nonneg _) (fun m => Cert.SumLaws.rsqrt_max_one_ne_top _) (fun m => H (ix2 m k)) n
  rw [← hs, ← hd] at key
  rw [← hs, ← hd]
  exact key

/-- A layer's output in the factored form is `Spec.act` of the pre-scaled linear map. -/
private theorem act_scaled_eq {C : ℕ} (src dst : Fin 800000 → Fin 50000) (a : Fin 50000 → Fin C → EReal) (W : Fin C → Fin 64 → EReal)
    (b : Fin 64 → EReal) (n : Fin 50000) (k : Fin 64) :
    max (Spec.dinv dst n * Spec.agg src dst (fun m k => (∑ c : Fin C, a m c * W c k) * Spec.dinv dst m) n k + b k) 0
      = Spec.act src dst (Spec.scaled dst a W) b n k := by
  unfold Spec.act Spec.scaled
  simp only [zero_add]

/-- The first linear map at `(m, k)`: the sum over the 128 input features. -/
private theorem v29_read (m : Fin 50000) (k : Fin 64) :
    val_main_v29 (F := Ideal) x0 x3 (ix2 m k) = ∑ c : Fin 128, x0 (ix2 m c) * x3 (ix2 c k) := by
  rw [val_main_v29_apply]
  refine Finset.sum_congr rfl fun c _ => ?_
  have hl : lidx_main_v29 (ix2 m k) c = ix2 m c := by
    funext a
    match a with
    | ⟨0, _⟩ => rfl
    | ⟨1, _⟩ => rfl
  have hr : ridx_main_v29 (ix2 m k) c = ix2 c k := by
    funext a
    match a with
    | ⟨0, _⟩ => rfl
    | ⟨1, _⟩ => rfl
  rw [hl, hr]

/-- The bias row of the first layer at `(n, k)`. -/
private theorem v44_read (n : Fin 50000) (k : Fin 64) : val_main_v44 (F := Ideal) x4 (ix2 n k) = x4 (ix1 k) := by
  rw [val_main_v44_apply, val_main_v43_apply]
  congr 1
  funext a
  match a with
  | ⟨0, _⟩ => rfl

/-- The first layer's activations are `Spec.act` of its pre-scaled rows. -/
private theorem v46_act (hei : ∀ i : S2x800000.Idx, 0 ≤ (x1 i).toInt ∧ (x1 i).toInt < 50000) (n : Fin 50000) (k : Fin 64) :
    val_main_v46 (F := Ideal) x0 x1 x3 x4 (ix2 n k)
      = Spec.act (Spec.srcOf x1) (Spec.dstOf x1)
          (Spec.scaled (Spec.dstOf x1) (fun n q => x0 (ix2 n q)) (fun q k => x3 (ix2 q k))) (fun k => x4 (ix1 k)) n k := by
  rw [val_main_v46_apply, val_main_v45_apply, val_main_call0_v0_apply, val_main_call0_cst_apply, v44_read, v42_eq,
    layer_read x1 hei _ (v13_dinv x1 hei), Ideal.maximumf_def, Ideal.addf_def, Ideal.ofBits_def, Ideal.ofBits_zero_f32]
  simp only [v29_read]
  exact act_scaled_eq (Spec.srcOf x1) (Spec.dstOf x1) (fun n q => x0 (ix2 n q)) (fun q k => x3 (ix2 q k)) (fun k => x4 (ix1 k)) n k

/-- The second linear map at `(m, k)`: the sum over the 64 features of the first layer's activations. -/
private theorem v72_read (m : Fin 50000) (k : Fin 64) :
    val_main_v72 (F := Ideal) x0 x1 x3 x4 x5 (ix2 m k)
      = ∑ c : Fin 64, val_main_v46 (F := Ideal) x0 x1 x3 x4 (ix2 m c) * x5 (ix2 c k) := by
  rw [val_main_v72_apply]
  refine Finset.sum_congr rfl fun c _ => ?_
  have hl : lidx_main_v72 (ix2 m k) c = ix2 m c := by
    funext a
    match a with
    | ⟨0, _⟩ => rfl
    | ⟨1, _⟩ => rfl
  have hr : ridx_main_v72 (ix2 m k) c = ix2 c k := by
    funext a
    match a with
    | ⟨0, _⟩ => rfl
    | ⟨1, _⟩ => rfl
  rw [hl, hr]

/-- The bias row of the second layer at `(n, k)`. -/
private theorem v87_read (n : Fin 50000) (k : Fin 64) : val_main_v87 (F := Ideal) x6 (ix2 n k) = x6 (ix1 k) := by
  rw [val_main_v87_apply, val_main_v86_apply]
  congr 1
  funext a
  match a with
  | ⟨0, _⟩ => rfl

/-- The second layer's activations are `Spec.act` of its pre-scaled rows, over the first layer's activations. -/
private theorem v89_act (hei : ∀ i : S2x800000.Idx, 0 ≤ (x1 i).toInt ∧ (x1 i).toInt < 50000) (n : Fin 50000) (k : Fin 64) :
    val_main_v89 (F := Ideal) x0 x1 x3 x4 x5 x6 (ix2 n k)
      = Spec.act (Spec.srcOf x1) (Spec.dstOf x1)
          (Spec.scaled (Spec.dstOf x1)
            (Spec.act (Spec.srcOf x1) (Spec.dstOf x1)
              (Spec.scaled (Spec.dstOf x1) (fun n q => x0 (ix2 n q)) (fun q k => x3 (ix2 q k))) (fun k => x4 (ix1 k)))
            (fun q k => x5 (ix2 q k))) (fun k => x6 (ix1 k)) n k := by
  rw [val_main_v89_apply, val_main_v88_apply, val_main_call1_v0_apply, val_main_call1_cst_apply, v87_read, v85_eq,
    layer_read x1 hei _ (v56_dinv x1 hei), Ideal.maximumf_def, Ideal.addf_def, Ideal.ofBits_def, Ideal.ofBits_zero_f32]
  simp only [v72_read, v46_act x0 x1 x3 x4 hei]
  exact act_scaled_eq (Spec.srcOf x1) (Spec.dstOf x1)
    (Spec.act (Spec.srcOf x1) (Spec.dstOf x1)
      (Spec.scaled (Spec.dstOf x1) (fun n q => x0 (ix2 n q)) (fun q k => x3 (ix2 q k))) (fun k => x4 (ix1 k)))
    (fun q k => x5 (ix2 q k)) (fun k => x6 (ix1 k)) n k

/-- The pooling index column at row `e`: the graph id of node `e`. -/
private theorem v91_read (e : Fin 50000) : val_main_v91 (F := Ideal) x2 (ix2 e (0 : Fin 1)) = x2 (ix1 e) := by
  rw [val_main_v91_apply]
  congr 1
  funext a
  match a with
  | ⟨0, _⟩ => rfl

/-- The pooling scatter starts from zero. -/
private theorem v90_read (i : S64x64.Idx) : val_main_v90 (F := Ideal) i = 0 := by
  rw [val_main_v90_apply, val_main_cst_18_apply, Ideal.ofBits_def, Ideal.ofBits_zero_f32]

end Steps

/-- The reference's pooled sums are `Spec.sums` of the arguments. -/
theorem ref_sums (x0 : FVec Ideal S50000x128 .f32) (x1 : IVec S2x800000 32) (x2 : IVec S50000 32) (x3 : FVec Ideal S128x64 .f32)
    (x4 : FVec Ideal S64 .f32) (x5 : FVec Ideal S64x64 .f32) (x6 : FVec Ideal S64 .f32)
    (hei : ∀ i : S2x800000.Idx, 0 ≤ (x1 i).toInt ∧ (x1 i).toInt < 50000) (g k : Fin 64) :
    val_main_v92 (F := Ideal) x0 x1 x2 x3 x4 x5 x6 (ix2 g k)
      = Spec.sums (Spec.srcOf x1) (Spec.dstOf x1) (fun n q => x0 (ix2 n q)) (fun q k => x3 (ix2 q k)) (fun k => x4 (ix1 k))
          (fun q k => x5 (ix2 q k)) (fun k => x6 (ix1 k)) (fun n => x2 (ix1 n)) g k := by
  -- The pooling scatter adds, onto the zero row of graph `g`, the second-layer rows of the nodes whose graph id is `g`.
  refine (Cert.ScatterRead.scatterAdd_rows scatter_S64x64_S50000x1_S50000x64_1_0_0_1.wf (val_main_v90 (F := Ideal))
    (val_main_v91 (F := Ideal) x2) (val_main_v89 (F := Ideal) x0 x1 x3 x4 x5 x6) g k).trans ?_
  rw [v90_read, zero_add]
  simp only [v91_read, v89_act x0 x1 x3 x4 x5 x6 hei]
  rfl

end Cert.ReferenceIdeal.RefValue

end
-- ==== Proof.PreDecode.lean ====
/-
  What the precondition says about the edge table: its last conjunct is "every word of the 2 × 800000 edge table is at
  least 0 and less than 50000", an `and` over all its entries of two signed comparisons.  The precondition being all ones
  makes that conjunct one, hence each comparison one at each entry.
-/
import proofs.«420831_j59596966199647_3_alg».proof.Pre_finite_inputs
import proofs.«420831_j59596966199647_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs

/-- Under the precondition every edge word names a node. -/
theorem range_of_pre (x0 : FVec Ideal S50000x128 .f32) (x1 : IVec S2x800000 32) (x2 : IVec S50000 32) (x3 : FVec Ideal S128x64 .f32)
    (x4 : FVec Ideal S64 .f32) (x5 : FVec Ideal S64x64 .f32) (x6 : FVec Ideal S64 .f32) (x7 : FVec Ideal S64x32 .f32)
    (x8 : FVec Ideal S32 .f32) (x9 : FVec Ideal S32x1 .f32) (x10 : FVec Ideal S1 .f32)
    (h : Cert.Pre_finite_inputs.fn (F := Ideal) x0 x1 x2 x3 x4 x5 x6 x7 x8 x9 x10 = fun _ => 1#1) :
    ∀ i : S2x800000.Idx, 0 ≤ (x1 i).toInt ∧ (x1 i).toInt < 50000 := by
  intro i
  -- the precondition's one word is the `and` of the earlier conjuncts with the last one: the `and`, over every entry of the
  -- edge table, of "0 ≤ word" and "word < 50000" (both signed); the two literals are read off their scalar broadcasts
  have e : IntOp.andi _ (Host.reduce IntOp.andi
      (fun i : S2x800000.Idx => IntOp.andi (IntOp.cmpi .sge (x1 i) 0#32) (IntOp.cmpi .slt (x1 i) 50000#32))
      (constantI S_ 1 1#1) Facts.reducesTo_S2x800000_S_d0_1 Facts.h_S_ ValueIdx.ix0) = 1#1 :=
    congrFun h ValueIdx.ix0
  -- a one-bit `and` that is one has both operands one: keep the last conjunct
  have eall := (IntOp.andi_eq_one.1 e).2
  -- an `and`-reduction into the one scalar index that is one met a one at every entry
  haveI : Subsingleton S_.Idx := ⟨fun a b => funext fun d => d.elim0⟩
  have ei := Host.reduce_andi_all _ _ _ _ _ eall i
  obtain ⟨hge, hlt⟩ := IntOp.andi_eq_one.1 ei
  -- the two signed comparisons, read back, against the literals' values
  rw [IntOp.cmpi_sge, show (0#32 : BitVec 32).toInt = 0 from by decide] at hge
  rw [IntOp.cmpi_slt, show (50000#32 : BitVec 32).toInt = 50000 from by decide] at hlt
  exact ⟨hge, hlt⟩

end Cert.PreDecode

end
-- ==== Proof.lean ====
/-
  The certificate: a three-region graph-convolution kernel program (two linear layers with symmetric normalisation,
  per-graph pooling, a dense head) against its jnp reference, equal over the extended reals.

  The statement carries the evident domain of the edge table: every word of the 2 × 800000 edge table names a node,
  `0 ≤ word < 50000`.  Outside it the two programs differ (the kernel's `.at[dst].add` wraps a negative destination by
  50000 where the reference's `segment_sum` drops it), inside it they agree for all float inputs, finite or not:
  * both programs end with the same dense head applied to a 64 × 64 array of pooled second-layer activations;
  * the kernel program's pooled array is `Spec.sums` of the arguments (`KValue.sums_val`): its host stretches compute the
    degrees and the neighbourhood sums of pre-scaled rows, its regions the linear maps, rectifiers and the pooling;
  * the reference's pooled array is `Spec.sums` of the arguments too (`RefValue.ref_sums`): its per-edge normaliser
    `dinv (src) · dinv (dst)` factors through the sum over the edges into a node because `dinv` is a non-negative finite
    number, and its appended self loops are the kernel's `+ hs n`.
  The kernel program's frames are the generated ones; the reference's frame is its generated run with the result dropped;
  the idealization rewrote nothing, so `preserves` is trivial.
-/
import proofs.«420831_j59596966199647_3_alg».proof.Defs
import proofs.«420831_j59596966199647_3_alg».proof.Proof.Gen.Kernel
import proofs.«420831_j59596966199647_3_alg».proof.Proof.Gen.Kernel.Skeleton
import proofs.«420831_j59596966199647_3_alg».proof.Proof.Gen.Kernel.Launch
import proofs.«420831_j59596966199647_3_alg».proof.Proof.Gen.Kernel.Points
import proofs.«420831_j59596966199647_3_alg».proof.Proof.Gen.Kernel.Frame
import proofs.«420831_j59596966199647_3_alg».proof.Proof.Gen.KernelIdeal
import proofs.«420831_j59596966199647_3_alg».proof.Proof.Gen.KernelIdeal.Skeleton
import proofs.«420831_j59596966199647_3_alg».proof.Proof.Gen.KernelIdeal.Launch
import proofs.«420831_j59596966199647_3_alg».proof.Proof.Gen.KernelIdeal.Points
import proofs.«420831_j59596966199647_3_alg».proof.Proof.Gen.KernelIdeal.Frame
import proofs.«420831_j59596966199647_3_alg».proof.Proof.Gen.ReferenceIdeal
import proofs.«420831_j59596966199647_3_alg».proof.Proof.Gen.Pre_finite_inputs
import proofs.«420831_j59596966199647_3_alg».proof.Proof.Gen.ReferenceIdeal.Run
import proofs.«420831_j59596966199647_3_alg».proof.Proof.Gen.ReferenceIdeal.Read
import proofs.«420831_j59596966199647_3_alg».proof.Proof.KernelRun
import proofs.«420831_j59596966199647_3_alg».proof.Proof.KernelValue
import proofs.«420831_j59596966199647_3_alg».proof.Proof.RefValue
import proofs.«420831_j59596966199647_3_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The dense head is one function in both programs' vocabularies. -/
theorem tail_eq (S : FVec Ideal Cert.KernelIdeal.S64x64 .f32) (x2 : IVec Cert.KernelIdeal.S50000 32)
    (x7 : FVec Ideal Cert.KernelIdeal.S64x32 .f32) (x8 : FVec Ideal Cert.KernelIdeal.S32 .f32)
    (x9 : FVec Ideal Cert.KernelIdeal.S32x1 .f32) (x10 : FVec Ideal Cert.KernelIdeal.S1 .f32) :
    Cert.ReferenceIdeal.RefValue.tailR S x2 x7 x8 x9 x10 = Cert.KernelIdeal.KValue.tailK S x2 x7 x8 x9 x10 := rfl

/-- From memories agreeing on the arguments both programs end with the dense head of `Spec.sums` of the arguments. -/
theorem algebraic : Cert.algebraic_KernelIdeal_ReferenceIdeal := by
  intro m ρ m' ρ' hpre hagree
  refine ⟨fun c => Cert.KernelIdeal.Gen.W9 m ρ c (Proc.devRef .tc Cert.KernelIdeal.main_v72),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  have hei := Cert.PreDecode.range_of_pre _ _ _ _ _ _ _ _ _ _ _ (hpre c)
  rw [Cert.ReferenceIdeal.Read.val_main_v109_eq m' c, h0, h1, h2, h3, h4, h5, h6, h7, h8, h9, h10,
    Cert.ReferenceIdeal.RefValue.val109_eq_tail]
  show _ = Cert.KernelIdeal.Gen.W9 m ρ c (Proc.devRef .tc Cert.KernelIdeal.main_v72)
  rw [Cert.KernelIdeal.KValue.W9_v72 m ρ c, tail_eq]
  refine congrArg (fun S => Cert.KernelIdeal.KValue.tailK S _ _ _ _ _) ?_
  funext i
  obtain ⟨g, k, rfl⟩ : ∃ (g : Fin 64) (k : Fin 64), i = ix2 g k := ⟨i 0, i 1, eq_ix2 i⟩
  exact (Cert.ReferenceIdeal.RefValue.ref_sums _ _ _ _ _ _ _ hei g k).trans
    (Cert.KernelIdeal.KValue.sums_val m ρ c hei g k).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
